-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "c_403_25" .f32 0x4180F5C3#32 ((403 / 25 : ℝ) : EReal)
  ∧ IdealRules.truncf_extf.Statement Cert.KernelIdeal.S128x6400 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x32000 : Shape := ⟨3, ![16, 128, 32000]⟩
abbrev S16x128 : Shape := ⟨2, ![16, 128]⟩
abbrev S_ : Shape := ⟨0, ![]⟩

class Facts : Prop where
  bcast_S_S16x128x32000 : S_.BroadcastsInDim S16x128x32000 (![] : Fin 0 → Fin S16x128x32000.rank)
  reducesTo_S16x128x32000_S_d0_1_2 : S16x128x32000.ReducesTo [0, 1, 2] S_
  h_S_ : 0 < S_.numel
  bcast_S_S16x128 : S_.BroadcastsInDim S16x128 (![] : Fin 0 → Fin S16x128.rank)
  reducesTo_S16x128_S_d0_1 : S16x128.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x128x32000 .f32) (main_arg1 : IVec S16x128 32) (main_arg2 : FVec F S16x128x32000 .f32) : IVec S_ 1 :=
  let main_v0 : FVec F S16x128x32000 .f32 := Host.absf main_arg0
  let main_cst : FVec F S_ .f32 := constant S_ .f32 0x7F800000#32
  let main_v1 : FVec F S16x128x32000 .f32 := broadcastInDim S16x128x32000 ![] bcast_S_S16x128x32000 main_cst
  let main_v2 : IVec S16x128x32000 1 := cmpf .olt main_v0 main_v1
  let main_c : IVec S_ 1 := constantI S_ 1 1#1
  let main_v3 : IVec S_ 1 := (fun x v => Host.reduce IntOp.andi x v reducesTo_S16x128x32000_S_d0_1_2 h_S_) main_v2 main_c
  let main_v4 : FVec F S16x128x32000 .f32 := Host.absf main_arg2
  let main_cst_0 : FVec F S_ .f32 := constant S_ .f32 0x7F800000#32
  let main_v5 : FVec F S16x128x32000 .f32 := broadcastInDim S16x128x32000 ![] bcast_S_S16x128x32000 main_cst_0
  let main_v6 : IVec S16x128x32000 1 := cmpf .olt main_v4 main_v5
  let main_c_1 : IVec S_ 1 := constantI S_ 1 1#1
  let main_v7 : IVec S_ 1 := (fun x v => Host.reduce IntOp.andi x v reducesTo_S16x128x32000_S_d0_1_2 h_S_) main_v6 main_c_1
  let main_v8 : IVec S_ 1 := andi main_v3 main_v7
  let main_c_2 : IVec S_ 32 := constantI S_ 32 0#32
  let main_v9 : IVec S16x128 32 := broadcastInDim S16x128 ![] bcast_S_S16x128 main_c_2
  let main_v10 : IVec S16x128 1 := cmpi .sge main_arg1 main_v9
  let main_c_3 : IVec S_ 1 := constantI S_ 1 1#1
  let main_v11 : IVec S_ 1 := (fun x v => Host.reduce IntOp.andi x v reducesTo_S16x128_S_d0_1 h_S_) main_v10 main_c_3
  let main_v12 : IVec S_ 1 := andi main_v8 main_v11
  let main_c_4 : IVec S_ 32 := constantI S_ 32 32000#32
  let main_v13 : IVec S16x128 32 := broadcastInDim S16x128 ![] bcast_S_S16x128 main_c_4
  let main_v14 : IVec S16x128 1 := cmpi .slt main_arg1 main_v13
  let main_c_5 : IVec S_ 1 := constantI S_ 1 1#1
  let main_v15 : IVec S_ 1 := (fun x v => Host.reduce IntOp.andi x v reducesTo_S16x128_S_d0_1 h_S_) main_v14 main_c_5
  fn_part1 (F := F) main_v12 main_v15
-- ==== Kernel.lean ====
abbrev S16x128x32000 : Shape := ⟨3, ![16, 128, 32000]⟩
abbrev S16x128 : Shape := ⟨2, ![16, 128]⟩
abbrev S16x1x128 : Shape := ⟨3, ![16, 1, 128]⟩
abbrev S16x128x128 : Shape := ⟨3, ![16, 128, 128]⟩
abbrev S1x128x6400 : Shape := ⟨3, ![1, 128, 6400]⟩
abbrev S1x1x128 : Shape := ⟨3, ![1, 1, 128]⟩
abbrev S1x128x128 : Shape := ⟨3, ![1, 128, 128]⟩
abbrev S128x1 : Shape := ⟨2, ![128, 1]⟩
abbrev S128x128 : Shape := ⟨2, ![128, 128]⟩
abbrev S128x6400 : Shape := ⟨2, ![128, 6400]⟩
abbrev S128 : Shape := ⟨1, ![128]⟩
abbrev S1x128 : Shape := ⟨2, ![1, 128]⟩
abbrev S6400x128 : Shape := ⟨2, ![6400, 128]⟩
abbrev S_ : Shape := ⟨0, ![]⟩
abbrev S16x128x1 : Shape := ⟨3, ![16, 128, 1]⟩
abbrev S16x1x128x128 : Shape := ⟨4, ![16, 1, 128, 128]⟩
abbrev S16x1x128x1 : Shape := ⟨4, ![16, 1, 128, 1]⟩
abbrev S16x1x1x128 : Shape := ⟨4, ![16, 1, 1, 128]⟩
abbrev S16x1 : Shape := ⟨2, ![16, 1]⟩
abbrev S16 : Shape := ⟨1, ![16]⟩

abbrev nBuf : Space → Nat
  | .hbm => 44
  | .vmem => 11
  | .smem => 0
  | _ => 0

abbrev bufTy : (tb : Table) → Fin (tcTables nBuf tb) → BufTy
  | .hbm, ⟨0, _⟩ => ⟨S16x128x32000, .f32⟩
  | .hbm, ⟨1, _⟩ => ⟨S16x128, .i32⟩
  | .hbm, ⟨2, _⟩ => ⟨S16x128x32000, .f32⟩
  | .hbm, ⟨3, _⟩ => ⟨S16x1x128, .i32⟩
  | .hbm, ⟨4, _⟩ => ⟨S16x128x128, .f32⟩
  | .hbm, ⟨5, _⟩ => ⟨S_, .i32⟩
  | .hbm, ⟨6, _⟩ => ⟨S16x128, .i32⟩
  | .hbm, ⟨7, _⟩ => ⟨S16x128, .i1⟩
  | .hbm, ⟨8, _⟩ => ⟨S16x128, .f32⟩
  | .hbm, ⟨9, _⟩ => ⟨S16x128x1, .f32⟩
  | .hbm, ⟨10, _⟩ => ⟨S16x1x128, .f32⟩
  | .hbm, ⟨11, _⟩ => ⟨S16x128x128, .f32⟩
  | .hbm, ⟨12, _⟩ => ⟨S16x128x128, .f32⟩
  | .hbm, ⟨13, _⟩ => ⟨S16x128x128, .f32⟩
  | .hbm, ⟨14, _⟩ => ⟨S16x128x128, .f32⟩
  | .hbm, ⟨15, _⟩ => ⟨S16x128x128, .f32⟩
  | .hbm, ⟨16, _⟩ => ⟨S16x1x128x128, .f32⟩
  | .hbm, ⟨17, _⟩ => ⟨S_, .f32⟩
  | .hbm, ⟨18, _⟩ => ⟨S16x1x128, .f32⟩
  | .hbm, ⟨19, _⟩ => ⟨S16x1x128x1, .f32⟩
  | .hbm, ⟨20, _⟩ => ⟨S_, .f32⟩
  | .hbm, ⟨21, _⟩ => ⟨S16x1x128x1, .f32⟩
  | .hbm, ⟨22, _⟩ => ⟨S16x1x128x1, .f32⟩
  | .hbm, ⟨23, _⟩ => ⟨S16x1x128x128, .f32⟩
  | .hbm, ⟨24, _⟩ => ⟨S16x1x128x128, .f32⟩
  | .hbm, ⟨25, _⟩ => ⟨S_, .f32⟩
  | .hbm, ⟨26, _⟩ => ⟨S16x1x128, .f32⟩
  | .hbm, ⟨27, _⟩ => ⟨S16x1x1x128, .f32⟩
  | .hbm, ⟨28, _⟩ => ⟨S_, .f32⟩
  | .hbm, ⟨29, _⟩ => ⟨S16x1x1x128, .f32⟩
  | .hbm, ⟨30, _⟩ => ⟨S16x1x1x128, .f32⟩
  | .hbm, ⟨31, _⟩ => ⟨S16x1x128x128, .f32⟩
  | .hbm, ⟨32, _⟩ => ⟨S16x1x128x128, .f32⟩
  | .hbm, ⟨33, _⟩ => ⟨S_, .f32⟩
  | .hbm, ⟨34, _⟩ => ⟨S16x1, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1x128x6400, .f32⟩
  | .local _ .vmem, ⟨1, _⟩ => ⟨S1x128x6400, .f32⟩
  | .local _ .vmem, ⟨2, _⟩ => ⟨S1x128x6400, .f32⟩
  | .local _ .vmem, ⟨3, _⟩ => ⟨S1x128x6400, .f32⟩
  | .local _ .vmem, ⟨4, _⟩ => ⟨S1x1x128, .i32⟩
  | .local _ .vmem, ⟨5, _⟩ => ⟨S1x1x128, .i32⟩
  | .local _ .vmem, ⟨6, _⟩ => ⟨S1x128x128, .f32⟩
  | .local _ .vmem, ⟨7, _⟩ => ⟨S1x128x128, .f32⟩
  | .local _ .vmem, ⟨8, _⟩ => ⟨S128x1, .f32⟩
  | .local _ .vmem, ⟨9, _⟩ => ⟨S128x1, .f32⟩
  | .local _ .vmem, ⟨10, _⟩ => ⟨S128x128, .f32⟩
  | _, _ => ⟨S16x128x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v64 : BitVec 1 := Scalar.cmpi .eq arg1 c4_i32
  let v65 : BitVec 32 := Scalar.extui v64
  let c0_i32_30 : BitVec 32 := 0#32
  let v66 : BitVec 1 := Scalar.cmpi .ne v65 c0_i32_30
  v66

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x128_S16x1x128 : S16x128.ShapeCasts S16x1x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128x6400_S1x128x6400_0_0_0 : ∀ a, (![0, 0, 0] : Fin 3 → Nat) a + S1x128x6400.size a ≤ S1x128x6400.size a
  h_S1x128x6400 : 0 < S1x128x6400.numel
  shapeCasts_S1x128x6400_S128x6400 : S1x128x6400.ShapeCasts S128x6400
  reduces_S128x6400_S128 : S128x6400.Reduces [1] S128
  shapeCasts_S128_S128x1 : S128.ShapeCasts S128x1
  broadcasts_S128x1_S128x6400 : S128x1.Broadcasts S128x6400
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  iota_S6400x128_d0_w32 : S6400x128.Iotas .tc 32 [0]
  shapeCasts_S1x128_S1x128 : S1x128.ShapeCasts S1x128
  broadcasts_S1x128_S6400x128 : S1x128.Broadcasts S6400x128
  natLt_1_32 : 1 < 32
  bitsLt_bf16_f32 : FTy.bits .bf16 < FTy.bits .f32
  broadcasts_S128x1_S128x128 : S128x1.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  bcast_S16x128_S16x1x128_0_2 : S16x128.BroadcastsInDim S16x1x128 (![0, 2] : Fin 2 → Fin S16x1x128.rank)
  bcast_S16x128x1_S16x128x128_0_1_2 : S16x128x1.BroadcastsInDim S16x128x128 (![0, 1, 2] : Fin 3 → Fin S16x128x128.rank)
  bcast_S16x1x128_S16x128x128_0_1_2 : S16x1x128.BroadcastsInDim S16x128x128 (![0, 1, 2] : Fin 3 → Fin S16x128x128.rank)
  transposes_S16x128x128_S16x128x128_0_2_1 : S16x128x128.Transposes [0, 2, 1] S16x128x128
  bcast_S16x128x128_S16x1x128x128_0_2_3 : S16x128x128.BroadcastsInDim S16x1x128x128 (![0, 2, 3] : Fin 3 → Fin S16x1x128x128.rank)
  reducesTo_S16x1x128x128_S16x1x128_d3 : S16x1x128x128.ReducesTo [3] S16x1x128
  h_S_ : 0 < S_.numel
  bcast_S16x1x128_S16x1x128x1_0_1_2 : S16x1x128.BroadcastsInDim S16x1x128x1 (![0, 1, 2] : Fin 3 → Fin S16x1x128x1.rank)
  bcast_S_S16x1x128x1 : S_.BroadcastsInDim S16x1x128x1 (![] : Fin 0 → Fin S16x1x128x1.rank)
  bcast_S16x1x128x1_S16x1x128x128_0_1_2_3 : S16x1x128x1.BroadcastsInDim S16x1x128x128 (![0, 1, 2, 3] : Fin 4 → Fin S16x1x128x128.rank)
  reducesTo_S16x1x128x128_S16x1x128_d2 : S16x1x128x128.ReducesTo [2] S16x1x128
  bcast_S16x1x128_S16x1x1x128_0_1_3 : S16x1x128.BroadcastsInDim S16x1x1x128 (![0, 1, 3] : Fin 3 → Fin S16x1x1x128.rank)
  bcast_S_S16x1x1x128 : S_.BroadcastsInDim S16x1x1x128 (![] : Fin 0 → Fin S16x1x1x128.rank)
  bcast_S16x1x1x128_S16x1x128x128_0_1_2_3 : S16x1x1x128.BroadcastsInDim S16x1x128x128 (![0, 1, 2, 3] : Fin 4 → Fin S16x1x128x128.rank)
  reducesTo_S16x1x128x128_S16x1_d2_3 : S16x1x128x128.ReducesTo [2, 3] S16x1
  shapeCasts_S16x1_S16 : S16x1.ShapeCasts S16
  reducesTo_S16x128_S16_d1 : S16x128.ReducesTo [1] S16
  reducesTo_S16_S_d0 : S16.ReducesTo [0] S_
  dot_S128x6400_S6400x128_S128x128_1_0_0_1_n_n_wf : DotDims.WF S128x6400 S6400x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x6400.size a ≤ S16x128x32000.size a
  hwx0_0 : ∀ i : grid0.Coords, EltTy.bits .f32 = 32 ∨ (Rect.block (s := S16x128x32000) S1x128x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x6400.size a ≤ S16x128x32000.size a
  hwx0_1 : ∀ i : grid0.Coords, EltTy.bits .f32 = 32 ∨ (Rect.block (s := S16x128x32000) S1x128x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .i32 = 32 ∨ (Rect.block (s := S16x1x128) S1x1x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S16x128x128.size a
  hwx0_3 : ∀ i : grid0.Coords, EltTy.bits .f32 = 32 ∨ (Rect.block (s := S16x128x128) S1x128x128.size (cc0_transform_3 i) (hinb0_3 i)).WholeWords (EltTy.packing .f32)

variable [Facts₀]

def dot_S128x6400_S6400x128_S128x128_1_0_0_1_n_n : DotDims S128x6400 S6400x128 S128x128 where
  lhsContracting := [1]
  rhsContracting := [0]
  lhsNonContracting := [0]
  rhsNonContracting := [1]
  lhsBatch := []
  rhsBatch := []
  wf := dot_S128x6400_S6400x128_S128x128_1_0_0_1_n_n_wf

abbrev win0_0 : Pipeline.Window sig grid0 :=
  Pipeline.Window.ofSpec (Memref.whole main_arg0) S1x128x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x128x32000 : Shape := ⟨3, ![16, 128, 32000]⟩
abbrev S16x128 : Shape := ⟨2, ![16, 128]⟩
abbrev S_ : Shape := ⟨0, ![]⟩
abbrev S16x128x1 : Shape := ⟨3, ![16, 128, 1]⟩
abbrev S16x1x128 : Shape := ⟨3, ![16, 1, 128]⟩
abbrev S16x128x128 : Shape := ⟨3, ![16, 128, 128]⟩
abbrev S16x1x128x128 : Shape := ⟨4, ![16, 1, 128, 128]⟩
abbrev S16x1x128x1 : Shape := ⟨4, ![16, 1, 128, 1]⟩
abbrev S16x1x1x128 : Shape := ⟨4, ![16, 1, 1, 128]⟩
abbrev S16x1 : Shape := ⟨2, ![16, 1]⟩
abbrev S16 : Shape := ⟨1, ![16]⟩

abbrev nBuf : Space → Nat
  | .hbm => 81
  | .vmem => 0
  | .smem => 0
  | _ => 0

abbrev bufTy : (tb : Table) → Fin (tcTables nBuf tb) → BufTy
  | .hbm, ⟨0, _⟩ => ⟨S16x128x32000, .f32⟩
  | .hbm, ⟨1, _⟩ => ⟨S16x128, .i32⟩
  | .hbm, ⟨2, _⟩ => ⟨S16x128x32000, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16x128x32000, .f32⟩
  | .hbm, ⟨7, _⟩ => ⟨S16x128x32000, .f32⟩
  | .hbm, ⟨8, _⟩ => ⟨S_, .f32⟩
  | .hbm, ⟨9, _⟩ => ⟨S16x128x32000, .f32⟩
  | .hbm, ⟨10, _⟩ => ⟨S16x128x32000, .f32⟩
  | .hbm, ⟨11, _⟩ => ⟨S16x128x32000, .f32⟩
  | .hbm, ⟨12, _⟩ => ⟨S16x128x32000, .f32⟩
  | .hbm, ⟨13, _⟩ => ⟨S16x128x32000, .f32⟩
  | .hbm, ⟨14, _⟩ => ⟨S16x128x32000, .f32⟩
  | .hbm, ⟨15, _⟩ => ⟨S16x128x32000, .f32⟩
  | .hbm, ⟨16, _⟩ => ⟨S_, .f32⟩
  | .hbm, ⟨17, _⟩ => ⟨S16x128x32000, .f32⟩
  | .hbm, ⟨18, _⟩ => ⟨S16x128x32000, .f32⟩
  | .hbm, ⟨19, _⟩ => ⟨S_, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S16x128x1, .f32⟩
  | .hbm, ⟨25, _⟩ => ⟨S16x128x32000, .f32⟩
  | .hbm, ⟨26, _⟩ => ⟨S16x128x32000, .f32⟩
  | .hbm, ⟨27, _⟩ => ⟨S16x128x32000, .f32⟩
  | .hbm, ⟨28, _⟩ => ⟨S_, .f32⟩
  | .hbm, ⟨29, _⟩ => ⟨S16x128, .f32⟩
  | .hbm, ⟨30, _⟩ => ⟨S16x128x1, .f32⟩
  | .hbm, ⟨31, _⟩ => ⟨S16x128x32000, .f32⟩
  | .hbm, ⟨32, _⟩ => ⟨S16x128x32000, .f32⟩
  | .hbm, ⟨33, _⟩ => ⟨S_, .i32⟩
  | .hbm, ⟨34, _⟩ => ⟨S16x128, .i32⟩
  | .hbm, ⟨35, _⟩ => ⟨S16x128, .i1⟩
  | .hbm, ⟨36, _⟩ => ⟨S16x128, .f32⟩
  | .hbm, ⟨37, _⟩ => ⟨S16x128x1, .f32⟩
  | .hbm, ⟨38, _⟩ => ⟨S16x1x128, .f32⟩
  | .hbm, ⟨39, _⟩ => ⟨S16x128x128, .f32⟩
  | .hbm, ⟨40, _⟩ => ⟨S16x128x128, .f32⟩
  | .hbm, ⟨41, _⟩ => ⟨S16x128x128, .f32⟩
  | .hbm, ⟨42, _⟩ => ⟨S_, .i32⟩
  | .hbm, ⟨43, _⟩ => ⟨S16x128, .i32⟩
  | .hbm, ⟨44, _⟩ => ⟨S16x128, .i1⟩
  | .hbm, ⟨45, _⟩ => ⟨S_, .i32⟩
  | .hbm, ⟨46, _⟩ => ⟨S16x128, .i32⟩
  | .hbm, ⟨47, _⟩ => ⟨S16x128, .i32⟩
  | .hbm, ⟨48, _⟩ => ⟨S16x128, .i32⟩
  | .hbm, ⟨49, _⟩ => ⟨S16x128x1, .i32⟩
  | .hbm, ⟨50, _⟩ => ⟨S16x128x128, .f32⟩
  | .hbm, ⟨51, _⟩ => ⟨S16x128x128, .f32⟩
  | .hbm, ⟨52, _⟩ => ⟨S16x128x128, .f32⟩
  | .hbm, ⟨53, _⟩ => ⟨S16x1x128x128, .f32⟩
  | .hbm, ⟨54, _⟩ => ⟨S_, .f32⟩
  | .hbm, ⟨55, _⟩ => ⟨S16x1x128, .f32⟩
  | .hbm, ⟨56, _⟩ => ⟨S16x1x128x1, .f32⟩
  | .hbm, ⟨57, _⟩ => ⟨S_, .f32⟩
  | .hbm, ⟨58, _⟩ => ⟨S16x1x128x1, .f32⟩
  | .hbm, ⟨59, _⟩ => ⟨S16x1x128x1, .f32⟩
  | .hbm, ⟨60, _⟩ => ⟨S16x1x128x128, .f32⟩
  | .hbm, ⟨61, _⟩ => ⟨S16x1x128x128, .f32⟩
  | .hbm, ⟨62, _⟩ => ⟨S_, .f32⟩
  | .hbm, ⟨63, _⟩ => ⟨S16x1x128, .f32⟩
  | .hbm, ⟨64, _⟩ => ⟨S16x1x1x128, .f32⟩
  | .hbm, ⟨65, _⟩ => ⟨S_, .f32⟩
  | .hbm, ⟨66, _⟩ => ⟨S16x1x1x128, .f32⟩
  | .hbm, ⟨67, _⟩ => ⟨S16x1x1x128, .f32⟩
  | .hbm, ⟨68, _⟩ => ⟨S16x1x128x128, .f32⟩
  | .hbm, ⟨69, _⟩ => ⟨S16x1x128x128, .f32⟩
  | .hbm, ⟨70, _⟩ => ⟨S_, .f32⟩
  | .hbm, ⟨71, _⟩ => ⟨S16x1, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S16x128x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  bcast_S_S16x128x32000 : S_.BroadcastsInDim S16x128x32000 (![] : Fin 0 → Fin S16x128x32000.rank)
  reducesTo_S16x128x32000_S16x128_d2 : S16x128x32000.ReducesTo [2] S16x128
  h_S_ : 0 < S_.numel
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  bcast_S16x128x1_S16x128x32000_0_1_2 : S16x128x1.BroadcastsInDim S16x128x32000 (![0, 1, 2] : Fin 3 → Fin S16x128x32000.rank)
  bcast_S16x128_S16x1x128_0_2 : S16x128.BroadcastsInDim S16x1x128 (![0, 2] : Fin 2 → Fin S16x1x128.rank)
  bcast_S16x128x1_S16x128x128_0_1_2 : S16x128x1.BroadcastsInDim S16x128x128 (![0, 1, 2] : Fin 3 → Fin S16x128x128.rank)
  bcast_S16x1x128_S16x128x128_0_1_2 : S16x1x128.BroadcastsInDim S16x128x128 (![0, 1, 2] : Fin 3 → Fin S16x128x128.rank)
  transposes_S16x128x128_S16x128x128_0_2_1 : S16x128x128.Transposes [0, 2, 1] S16x128x128
  bcast_S16x128x128_S16x1x128x128_0_2_3 : S16x128x128.BroadcastsInDim S16x1x128x128 (![0, 2, 3] : Fin 3 → Fin S16x1x128x128.rank)
  reducesTo_S16x1x128x128_S16x1x128_d3 : S16x1x128x128.ReducesTo [3] S16x1x128
  bcast_S16x1x128_S16x1x128x1_0_1_2 : S16x1x128.BroadcastsInDim S16x1x128x1 (![0, 1, 2] : Fin 3 → Fin S16x1x128x1.rank)
  bcast_S_S16x1x128x1 : S_.BroadcastsInDim S16x1x128x1 (![] : Fin 0 → Fin S16x1x128x1.rank)
  bcast_S16x1x128x1_S16x1x128x128_0_1_2_3 : S16x1x128x1.BroadcastsInDim S16x1x128x128 (![0, 1, 2, 3] : Fin 4 → Fin S16x1x128x128.rank)
  reducesTo_S16x1x128x128_S16x1x128_d2 : S16x1x128x128.ReducesTo [2] S16x1x128
  bcast_S16x1x128_S16x1x1x128_0_1_3 : S16x1x128.BroadcastsInDim S16x1x1x128 (![0, 1, 3] : Fin 3 → Fin S16x1x1x128.rank)
  bcast_S_S16x1x1x128 : S_.BroadcastsInDim S16x1x1x128 (![] : Fin 0 → Fin S16x1x1x128.rank)
  bcast_S16x1x1x128_S16x1x128x128_0_1_2_3 : S16x1x1x128.BroadcastsInDim S16x1x128x128 (![0, 1, 2, 3] : Fin 4 → Fin S16x1x128x128.rank)
  reducesTo_S16x1x128x128_S16x1_d2_3 : S16x1x128x128.ReducesTo [2, 3] S16x1
  shapeCasts_S16x1_S16 : S16x1.ShapeCasts S16
  reducesTo_S16x128_S16_d1 : S16x128.ReducesTo [1] S16
  reducesTo_S16_S_d0 : S16.ReducesTo [0] S_
  gather_S16x128x32000_S16x128x1_S16x128x128_1_2_0_0_2_2_11281_wf : GatherDims.WF S16x128x32000 S16x128x1 S16x128x128 [1] [2] [0] [2] [0] 2 ![1, 128, 1]

variable [Facts₀]

def gather_S16x128x32000_S16x128x1_S16x128x128_1_2_0_0_2_2_11281 : GatherDims S16x128x32000 S16x128x1 S16x128x128 where
  offsetDims := [1]
  collapsedSliceDims := [2]
  operandBatchingDims := [0]
  startIndicesBatchingDims := [0]
  startIndexMap := [2]
  indexVectorDim := 2
  sliceSizes := ![1, 128, 1]
  wf := gather_S16x128x32000_S16x128x1_S16x128x128_1_2_0_0_2_2_11281_wf

class Facts : Prop extends Facts₀ where

variable [Facts]
-- ==== Proof.Pieces.lean ====
/-
  What one run of the kernel body leaves behind, case by case, as values.

  The body runs in three cases: at a row's first vocabulary tile it first resets its three carried buffers — the running
  bound to -∞, the denominator and the 128 × 128 numerator to zero — and then updates them; at a middle tile it only updates
  them; at the last tile it also stores the quotient numerator / denominator into the output block. Each buffer ends a run
  covered by the body's last store into it, so its contents are that store's payload: the new bound `k0_pay8`, the new
  denominator `k0_pay11`, the new numerator `k0_pay1`, each a function of the tile's two input blocks, the label block and
  what the three buffers held before the run (at a first tile: of the reset constants, which the body reads back); and at
  the last tile the output block is `k0_pay3` of the new numerator and the new denominator, which the body reads back too.
-/
import proofs.«404316_j3822520893773_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F] [Named F]
variable (c : Dev nD) (i : grid0.Coords)
  (arg2 : Memref sig .tc .vmem S1x128x6400 .f32) (harg2 : arg2.IsWhole) (arg3 : Memref sig .tc .vmem S1x128x6400 .f32) (harg3 : arg3.IsWhole)
  (arg4 : Memref sig .tc .vmem S1x1x128 .i32) (harg4 : arg4.IsWhole) (arg5 : Memref sig .tc .vmem S1x128x128 .f32) (harg5 : arg5.IsWhole)
  (arg6 : Memref sig .tc .vmem S128x1 .f32) (harg6 : arg6.IsWhole) (arg7 : Memref sig .tc .vmem S128x1 .f32) (harg7 : arg7.IsWhole)
  (arg8 : Memref sig .tc .vmem S128x128 .f32) (harg8 : arg8.IsWhole)
  (x0 x1 : Vec F S1x128x6400 .f32) (x2 : Vec F S1x1x128 .i32) (xs0 xs1 : Vec F S128x1 .f32) (xs2 : Vec F S128x128 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A row's first tile: the carried buffers are reset, then updated -/

/-- First tile, the running bound: the new bound over the reset value -∞. -/
theorem first_bound (hc0 : cond0_0 i) (hc1 : ¬cond0_1 i) :
    sout0_A_0 c i arg2 harg2 arg3 harg3 arg4 harg4 arg5 harg5 arg6 harg6 arg7 harg7 arg8 harg8 hc0 hc1 x0 x1 x2
      = k0_pay2 (k0_pay8 x0 (k0_pay4 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S128x1) hz2]
  simp only [View.readAt_eq_ld, harg2.read_unread, View.ld_unit_zero (S := S1x128x6400) hz3, View.readCov_unit_zero (S := S128x1) _ hz2]

/-- First tile, the denominator: the update over the reset bound and the reset zero. -/
theorem first_den (hc0 : cond0_0 i) (hc1 : ¬cond0_1 i) :
    sout0_A_1 c i arg2 harg2 arg3 harg3 arg4 harg4 arg5 harg5 arg6 harg6 arg7 harg7 arg8 harg8 hc0 hc1 x0 x1 x2
      = k0_pay11 x0 x1 (k0_pay4 (F := F)) (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S128x1) hz2]
  simp only [View.readAt_eq_ld, harg2.read_unread, harg3.read_unread, View.ld_unit_zero (S := S1x128x6400) hz3, View.readCov_unit_zero (S := S128x1) _ hz2]

/-- First tile, the numerator: the update over the reset bound and the reset zero block. -/
theorem first_num (hc0 : cond0_0 i) (hc1 : ¬cond0_1 i) :
    sout0_A_2 c i arg2 harg2 arg3 harg3 arg4 harg4 arg5 harg5 arg6 harg6 arg7 harg7 arg8 harg8 hc0 hc1 x0 x1 x2
      = k0_pay1 (BitVec.ofNat 32 (i 1).val) (k0_pay9 x0 (k0_pay4 (F := F)) (k0_pay4 (F := F))) (k0_pay10 x0 x1 (k0_pay4 (F := F))) x2 (k0_pay6 (F := F)) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S128x128) hz2]
  simp only [View.readAt_eq_ld, harg2.read_unread, harg3.read_unread, harg4.read_unread, View.ld_unit_zero (S := S1x128x6400) hz3, View.ld_unit_zero (S := S1x1x128) hz3, View.readCov_unit_zero (S := S128x1) _ hz2, View.readCov_unit_zero (S := S128x128) _ hz2]

/-! ## A middle tile: the carried buffers are updated over what the tile before left -/

/-- Middle tile, the running bound. -/
theorem mid_bound (hc0 : ¬cond0_0 i) (hc1 : ¬cond0_1 i) :
    sout0_B_0 c i arg2 harg2 arg3 harg3 arg4 harg4 arg5 harg5 arg6 harg6 arg7 harg7 arg8 harg8 hc0 hc1 x0 x1 x2 xs0 xs1 xs2
      = k0_pay2 (k0_pay8 x0 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, harg2.read_unread, harg6.read_unread, View.ld_unit_zero (S := S1x128x6400) hz3, View.ld_unit_zero (S := S128x1) hz2]

/-- Middle tile, the denominator. -/
theorem mid_den (hc0 : ¬cond0_0 i) (hc1 : ¬cond0_1 i) :
    sout0_B_1 c i arg2 harg2 arg3 harg3 arg4 harg4 arg5 harg5 arg6 harg6 arg7 harg7 arg8 harg8 hc0 hc1 x0 x1 x2 xs0 xs1 xs2
      = k0_pay11 x0 x1 xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, harg2.read_unread, harg3.read_unread, harg6.read_unread, harg7.read_unread, View.ld_unit_zero (S := S1x128x6400) hz3, View.ld_unit_zero (S := S128x1) hz2]

/-- Middle tile, the numerator. -/
theorem mid_num (hc0 : ¬cond0_0 i) (hc1 : ¬cond0_1 i) :
    sout0_B_2 c i arg2 harg2 arg3 harg3 arg4 harg4 arg5 harg5 arg6 harg6 arg7 harg7 arg8 harg8 hc0 hc1 x0 x1 x2 xs0 xs1 xs2
      = k0_pay1 (BitVec.ofNat 32 (i 1).val) (k0_pay9 x0 xs0 xs0) (k0_pay10 x0 x1 xs0) x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg6.read_unread, harg8.read_unread, View.ld_unit_zero (S := S1x128x6400) hz3, View.ld_unit_zero (S := S1x1x128) hz3, View.ld_unit_zero (S := S128x1) hz2, View.ld_unit_zero (S := S128x128) hz2]

/-! ## The last tile: the same updates, and the output block is their quotient -/

/-- Last tile, the running bound. -/
theorem last_bound (hc0 : ¬cond0_0 i) (hc1 : cond0_1 i) :
    sout0_C_0 c i arg2 harg2 arg3 harg3 arg4 harg4 arg5 harg5 arg6 harg6 arg7 harg7 arg8 harg8 hc0 hc1 x0 x1 x2 xs0 xs1 xs2
      = k0_pay2 (k0_pay8 x0 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg6.read_unread, View.ld_unit_zero (S := S1x128x6400) hz3, View.ld_unit_zero (S := S128x1) hz2]

/-- Last tile, the denominator. -/
theorem last_den (hc0 : ¬cond0_0 i) (hc1 : cond0_1 i) :
    sout0_C_1 c i arg2 harg2 arg3 harg3 arg4 harg4 arg5 harg5 arg6 harg6 arg7 harg7 arg8 harg8 hc0 hc1 x0 x1 x2 xs0 xs1 xs2
      = k0_pay11 x0 x1 xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg3.read_unread, harg6.read_unread, harg7.read_unread, View.ld_unit_zero (S := S1x128x6400) hz3, View.ld_unit_zero (S := S128x1) hz2]

/-- Last tile, the numerator. -/
theorem last_num (hc0 : ¬cond0_0 i) (hc1 : cond0_1 i) :
    sout0_C_2 c i arg2 harg2 arg3 harg3 arg4 harg4 arg5 harg5 arg6 harg6 arg7 harg7 arg8 harg8 hc0 hc1 x0 x1 x2 xs0 xs1 xs2
      = k0_pay1 (BitVec.ofNat 32 (i 1).val) (k0_pay9 x0 xs0 xs0) (k0_pay10 x0 x1 xs0) x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg6.read_unread, harg8.read_unread, View.ld_unit_zero (S := S1x128x6400) hz3, View.ld_unit_zero (S := S1x1x128) hz3, View.ld_unit_zero (S := S128x1) hz2, View.ld_unit_zero (S := S128x128) hz2]

/-- Last tile, the output block: the new numerator over the new denominator, both read back from their buffers. -/
theorem last_out (hc0 : ¬cond0_0 i) (hc1 : cond0_1 i) :
    out0_C_3 c i arg2 harg2 arg3 harg3 arg4 harg4 arg5 harg5 arg6 harg6 arg7 harg7 arg8 harg8 hc0 hc1 x0 x1 x2 xs0 xs1 xs2
      = k0_pay3 (k0_pay1 (BitVec.ofNat 32 (i 1).val) (k0_pay9 x0 xs0 xs0) (k0_pay10 x0 x1 xs0) x2 xs2) (k0_pay11 x0 x1 xs0 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3]
  simp only [View.readCov_unit_zero (S := S128x128) _ hz2, View.readCov_unit_zero (S := S128x1) _ hz2, View.readAt_eq_ld, harg2.read_unread, harg3.read_unread, harg4.read_unread, harg6.read_unread, harg7.read_unread, harg8.read_unread, View.ld_unit_zero (S := S1x128x6400) hz3, View.ld_unit_zero (S := S1x1x128) hz3, View.ld_unit_zero (S := S128x1) hz2, View.ld_unit_zero (S := S128x128) hz2]

end Cert.KernelIdeal.Pieces

end
-- ==== Proof.Reals.lean ====
/-
  Extended reals that are reals. Under the precondition every float the two programs touch is a finite real, and on
  coerced reals the ideal operations are the real ones: this module says so once, for the operations the kernel and the
  reference use — `exp`, `log` of a positive number, a quotient by a nonzero number, `max`, finite sums, a lane maximum
  taken from `-∞` — and reads the two clip bounds as the reals in (0, 1) their words denote, so that the weight
  `-log (clip u)` of a noise value is a positive real.
-/
import Idealize.ShloMosaic.PureOps.Ideal
import Mathlib.Analysis.SpecialFunctions.Log.Basic

open scoped BigOperators
open Idealize.ShloMosaic

namespace Cert.Reals

/-- The lower clip bound, the real the word `0x2EDBE6FF` denotes (about 1e-10). -/
noncomputable def loR : ℝ := 14411519 * (2 : ℝ) ^ (-57 : ℤ)
/-- The upper clip bound, the real the word `0x3F7FFFFE` denotes (1 - 2⁻²³). -/
noncomputable def hiR : ℝ := 16777214 * (2 : ℝ) ^ (-24 : ℤ)

theorem ofBits_lo : Ideal.ofBits .f32 0x2EDBE6FF#32 = ((loR : ℝ) : EReal) := by
  simp [Ideal.ofBits, Ideal.ieee, -EReal.coe_mul, loR]
theorem ofBits_hi : Ideal.ofBits .f32 0x3F7FFFFE#32 = ((hiR : ℝ) : EReal) := by
  simp [Ideal.ofBits, Ideal.ieee, -EReal.coe_mul, hiR]
theorem ofBits_neg_inf : Ideal.ofBits .f32 0xFF800000#32 = (⊥ : EReal) := by
  simp [Ideal.ofBits, Ideal.ieee]
theorem loR_pos : 0 < loR := by
  unfold loR; positivity
theorem hiR_lt_one : hiR < 1 := by
  unfold hiR; norm_num
theorem loR_le_hiR : loR ≤ hiR := by
  unfold loR hiR; norm_num

/-- A noise value clipped into [lo, hi]. -/
noncomputable def clipR (u : ℝ) : ℝ := min hiR (max loR u)
theorem clipR_pos (u : ℝ) : 0 < clipR u := by
  exact lt_min (lt_of_lt_of_le loR_pos loR_le_hiR) (lt_of_lt_of_le loR_pos (le_max_left _ _))
theorem clipR_lt_one (u : ℝ) : clipR u < 1 := by
  exact lt_of_le_of_lt (min_le_left _ _) hiR_lt_one

/-- The weight of a noise value: minus the log of its clip, a positive real. -/
noncomputable def wr (u : ℝ) : ℝ := -Real.log (clipR u)
theorem wr_pos (u : ℝ) : 0 < wr u := by
  exact neg_pos.mpr (Real.log_neg (clipR_pos u) (clipR_lt_one u))

/-- On coerced reals the maximum is the reals' maximum: the coercion is monotone. -/
private theorem max_coe_aux (a b : ℝ) : max ((a : ℝ) : EReal) ((b : ℝ) : EReal) = ((max a b : ℝ) : EReal) := by
  rcases le_total a b with h | h
  · rw [max_eq_right h, max_eq_right (EReal.coe_le_coe_iff.mpr h)]
  · rw [max_eq_left h, max_eq_left (EReal.coe_le_coe_iff.mpr h)]
/-- On coerced reals the minimum is the reals' minimum. -/
private theorem min_coe_aux (a b : ℝ) : min ((a : ℝ) : EReal) ((b : ℝ) : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- The clip on the extended reals, of a real. -/
theorem clip_coe (u : ℝ) :
    min (Ideal.ofBits .f32 0x3F7FFFFE#32) (max (Ideal.ofBits .f32 0x2EDBE6FF#32) ((u : ℝ) : EReal)) = ((clipR u : ℝ) : EReal) := by
  rw [ofBits_hi, ofBits_lo, max_coe_aux, min_coe_aux]; rfl

/-- The kernel's weight `0 - log (clip u)` of a real noise value. -/
theorem weight_coe (u : ℝ) :
    (0 : EReal) - Ideal.log (min (Ideal.ofBits .f32 0x3F7FFFFE#32) (max (Ideal.ofBits .f32 0x2EDBE6FF#32) ((u : ℝ) : EReal)))
      = ((wr u : ℝ) : EReal) := by
  rw [clip_coe, Ideal.log_coe, if_neg (not_le.mpr (clipR_pos u)), zero_sub, ← EReal.coe_neg]; rfl

/-- The reference's Gumbel term `-(log (-(log (clip u))))` of a real noise value: minus the log of the weight. -/
theorem gumbel_coe (u : ℝ) :
    -(Ideal.log (-(Ideal.log (min (Ideal.ofBits .f32 0x3F7FFFFE#32) (max (Ideal.ofBits .f32 0x2EDBE6FF#32) ((u : ℝ) : EReal))))))
      = ((-Real.log (wr u) : ℝ) : EReal) := by
  -- the inner log is the real log of the clip, its negation is the weight, and the weight is positive
  have h : -(((Real.log (clipR u) : ℝ)) : EReal) = ((wr u : ℝ) : EReal) := by rw [← EReal.coe_neg]; rfl
  rw [clip_coe, Ideal.log_coe, if_neg (not_le.mpr (clipR_pos u)), h, Ideal.log_coe, if_neg (not_le.mpr (wr_pos u)),
    ← EReal.coe_neg]

/-- A quotient of reals by a nonzero real. -/
theorem div_coe_coe (a b : ℝ) (hb : b ≠ 0) : Ideal.div ((a : ℝ) : EReal) ((b : ℝ) : EReal) = ((a / b : ℝ) : EReal) := by
  rw [Ideal.div_coe hb, ← EReal.coe_mul, mul_one_div]

/-- A finite sum of coerced reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem bot_sub_coe (r : ℝ) : (⊥ : EReal) - ((r : ℝ) : EReal) = ⊥ := by
  exact EReal.bot_sub _
theorem max_bot_coe (r : ℝ) : max (⊥ : EReal) ((r : ℝ) : EReal) = ((r : ℝ) : EReal) := by
  exact max_eq_right bot_le
theorem max_coe_coe (a b : ℝ) : max ((a : ℝ) : EReal) ((b : ℝ) : EReal) = ((max a b : ℝ) : EReal) := by
  exact max_coe_aux a b

/-- A maximum folded from `-∞` over a finite family of coerced reals is `-∞` on the empty family and a coerced
    real otherwise: each new member either meets `-∞` and wins, or meets a real and the two reals' maximum is taken. -/
private theorem fold_max_aux {ι : Type*} [DecidableEq ι] (s : Finset ι) (f : ι → ℝ) :
    (s = ∅ ∧ s.fold max (⊥ : EReal) (fun k => ((f k : ℝ) : EReal)) = ⊥)
      ∨ ∃ r : ℝ, s.fold max (⊥ : EReal) (fun k => ((f k : ℝ) : EReal)) = ((r : ℝ) : EReal) := by
  induction s using Finset.induction_on with
  | empty => exact Or.inl ⟨rfl, Finset.fold_empty⟩
  | insert a s ha ih =>
    refine Or.inr ?_
    rw [Finset.fold_insert ha]
    rcases ih with ⟨_, h⟩ | ⟨r, h⟩
    · exact ⟨f a, by rw [h]; exact max_eq_left bot_le⟩
    · exact ⟨max (f a) r, by rw [h]; exact max_coe_aux _ _⟩

/-- A lane maximum taken from `-∞` over a nonempty finite family of reals is a real. -/
theorem fold_max_coe {n : ℕ} (hn : 0 < n) (f : Fin n → ℝ) :
    ∃ r : ℝ, (Finset.univ : Finset (Fin n)).fold max (⊥ : EReal) (fun k => ((f k : ℝ) : EReal)) = ((r : ℝ) : EReal) := by
  rcases fold_max_aux (Finset.univ : Finset (Fin n)) f with ⟨h, _⟩ | h
  · exfalso
    have hm : (⟨0, hn⟩ : Fin n) ∈ (Finset.univ : Finset (Fin n)) := Finset.mem_univ _
    rw [h] at hm
    exact Finset.notMem_empty _ hm
  · exact h

end Cert.Reals
-- ==== Proof.Payload.lean ====
/-
  The kernel body's arithmetic, read at an index, over the reals.

  One run of the body sees a 128 × 6400 tile of logits, the matching tile of noise, the 128 labels of the batch row and
  the three carried buffers. Its payloads are: the new running bound (per row, the larger of the carried bound and the tile's
  row maximum plus a constant); the rescale factor exp (carried bound - new bound); the tile's weighted exponentials
  p = exp (logit - new bound) / (-log (clip noise)); the new denominator (carried · factor + the row sum of p); the new
  numerator (carried · factor + p times the 0/1 matrix that has a one where the tile's column is the label's, which the
  kernel forms as two matrix products, of p and of p - p); and, at a row's last tile, numerator / denominator. When the tile
  holds finite reals each of these, at an index, is the coercion of the same formula over the reals, and the 0/1 entry at
  column `v` of tile `t` for label `L` is "6400 t + v = L".
-/
import proofs.«404316_j3822520893773_3_alg».proof.Proof.Gen.KernelIdeal.Skeleton
import proofs.«404316_j3822520893773_3_alg».proof.Proof.Reals
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Payload

open Cert.KernelIdeal Cert.KernelIdeal.Gen Cert.Reals

/-! ## Layout operations of the body read at an index -/

/-- A 128 × 1 column broadcast along the lanes of a 128 × 128 tile reads, at (k, j), the column at (k, 0). -/
private theorem bcast_col_128 {α : Type} (x : S128x1.Idx → α) (k j : Fin 128) :
    broadcastTo S128x128 x broadcasts_S128x1_S128x128 (ix2 k j) = x (ix2 k (0 : Fin 1)) :=
  broadcastTo_apply x _ (ix2 k j) (ix2 k (0 : Fin 1)) fun ax =>
    match ax with
    | ⟨0, _⟩ => rfl
    | ⟨1, _⟩ => rfl

/-- A 128 × 1 column broadcast along the lanes of a 128 × 6400 tile reads, at (k, v), the column at (k, 0). -/
private theorem bcast_col_6400 {α : Type} (x : S128x1.Idx → α) (k : Fin 128) (v : Fin 6400) :
    broadcastTo S128x6400 x broadcasts_S128x1_S128x6400 (ix2 k v) = x (ix2 k (0 : Fin 1)) :=
  broadcastTo_apply x _ (ix2 k v) (ix2 k (0 : Fin 1)) fun ax =>
    match ax with
    | ⟨0, _⟩ => rfl
    | ⟨1, _⟩ => rfl

/-- A 128-vector viewed as a 128 × 1 column reads, at (k, 0), the vector at k. -/
private theorem cast_col {α : Type} (x : S128.Idx → α) (k : Fin 128) (u : Fin 1) :
    shapeCast S128x1 x shapeCasts_S128_S128x1 (ix2 k u) = x (ix1 k) :=
  shapeCast_apply x _ _ _ (by
    have hu : u.val = 0 := by omega
    rw [Shape.rowMajor_val_one, Shape.rowMajor_val_two]
    show k.val = k.val * 1 + u.val
    omega)

/-- The source index of lane v of row k under the reduction along the lanes is (k, v). -/
private theorem lift_row (k : Fin 128) (v : Fin 6400) :
    reduces_S128x6400_S128.lift (ix1 k) v = ix2 k v :=
  funext fun c => match c with
    | ⟨0, _⟩ => Fin.ext rfl
    | ⟨1, _⟩ => Fin.ext rfl

/-- The tile of the block, read at (k, v), is the block at (0, k, v). -/
private theorem pay7_apply (x0 : Vec Ideal S1x128x6400 .f32) (k : Fin 128) (v : Fin 6400) :
    (k0_pay7 (F := Ideal) x0 (ix2 k v) : EReal) = x0 (ix3 (0 : Fin 1) k v) := by
  unfold k0_pay7
  exact shapeCast_1ab_ab_apply x0 _ k v

/-- The body's named constant is the real 403/25. -/
private theorem c_403_25 :
    Named.named (F := Ideal) Cert.KernelIdeal.κ "c_403_25" (φ := .f32) 0x4180F5C3#32 = ((403 / 25 : ℝ) : EReal) :=
  IdealRules.named_const.ideal_named_scalar _ _ _ _ rfl

/-! ## The reset constants and the two identity payloads -/

theorem reset_bound (k : Fin 128) : (k0_pay4 (F := Ideal) (ix2 k (0 : Fin 1)) : EReal) = ⊥ := by
  unfold k0_pay4
  rw [shapeCast_self]
  exact ofBits_neg_inf
theorem reset_den (k : Fin 128) : (k0_pay5 (F := Ideal) (ix2 k (0 : Fin 1)) : EReal) = 0 := by
  unfold k0_pay5
  rw [shapeCast_self]
  exact Ideal.ofBits_zero_f32
theorem reset_num (k j : Fin 128) : (k0_pay6 (F := Ideal) (ix2 k j) : EReal) = 0 := by
  unfold k0_pay6
  rw [shapeCast_self]
  exact Ideal.ofBits_zero_f32
/-- The store of the new bound re-shapes a 128 × 1 vector to itself. -/
theorem bound_store (v : FVec Ideal S128x1 .f32) : k0_pay2 (F := Ideal) v = v := by
  unfold k0_pay2
  exact shapeCast_self v _

/-! ## The new bound and the rescale factor -/

/-- The new running bound of row `k`: the larger of the carried bound and a REAL (the tile row's maximum plus the named
    constant), when the tile's logits are reals. -/
theorem bound_apply (x0 : Vec Ideal S1x128x6400 .f32) (s : Vec Ideal S128x1 .f32) (xr : Fin 128 → Fin 6400 → ℝ)
    (hx : ∀ k v, (x0 (ix3 (0 : Fin 1) k v) : EReal) = ((xr k v : ℝ) : EReal)) (k : Fin 128) :
    ∃ r : ℝ, (k0_pay8 (F := Ideal) x0 s (ix2 k (0 : Fin 1)) : EReal) = max (s (ix2 k (0 : Fin 1)) : EReal) ((r : ℝ) : EReal) := by
  -- the maximum of row k's lanes, taken from -∞ over 6400 reals, is a real m
  obtain ⟨m, hm⟩ := fold_max_coe (by norm_num : 0 < 6400) (xr k)
  have hfun : (k0_pay7 (F := Ideal) x0 ∘ reduces_S128x6400_S128.lift (ix1 k))
      = fun v : Fin 6400 => ((xr k v : ℝ) : EReal) := by
    refine funext fun (v : Fin 6400) => ?_
    exact (congrArg (k0_pay7 (F := Ideal) x0) (lift_row k v)).trans ((pay7_apply x0 k v).trans (hx k v))
  have hmax : multiReduction (F := Ideal) .maximumf [1] S128 (k0_pay7 x0) 0xFF800000#32 reduces_S128x6400_S128 (.inl rfl) rfl (ix1 k)
      = ((m : ℝ) : EReal) := by
    refine (Ideal.multiReduction_maximumf_single _ _ _ _ _ _).trans ?_
    rw [hfun]
    refine Eq.trans ?_ hm
    exact congrArg (fun b => Finset.fold max b (fun v : Fin 6400 => ((xr k v : ℝ) : EReal)) Finset.univ) ofBits_neg_inf
  -- the new bound is the larger of the carried one and m + 403/25
  refine ⟨m + 403 / 25, ?_⟩
  unfold k0_pay8
  rw [maximumf_apply, addf_apply, cast_col, hmax, broadcast_apply, c_403_25, ← EReal.coe_add]

/-- The rescale factor of row `k`: exp (carried bound - new bound). -/
theorem factor_apply (x0 : Vec Ideal S1x128x6400 .f32) (s s' : Vec Ideal S128x1 .f32) (k : Fin 128) :
    (k0_pay9 (F := Ideal) x0 s s' (ix2 k (0 : Fin 1)) : EReal)
      = Ideal.exp ((s' (ix2 k (0 : Fin 1)) : EReal) - (k0_pay8 (F := Ideal) x0 s (ix2 k (0 : Fin 1)) : EReal)) := by
  unfold k0_pay9
  rfl

/-! ## The tile's weighted exponentials and the new denominator -/

/-- Entry (k, v) of the tile's weighted exponentials, when the tile's logits and noise are reals and row `k`'s new
    bound is the real `M'`. -/
theorem prob_apply (x0 x1 : Vec Ideal S1x128x6400 .f32) (s : Vec Ideal S128x1 .f32) (xr ur : Fin 128 → Fin 6400 → ℝ)
    (hx : ∀ k v, (x0 (ix3 (0 : Fin 1) k v) : EReal) = ((xr k v : ℝ) : EReal))
    (hu : ∀ k v, (x1 (ix3 (0 : Fin 1) k v) : EReal) = ((ur k v : ℝ) : EReal))
    (k : Fin 128) (M' : ℝ) (hM : (k0_pay8 (F := Ideal) x0 s (ix2 k (0 : Fin 1)) : EReal) = ((M' : ℝ) : EReal)) (v : Fin 6400) :
    (k0_pay10 (F := Ideal) x0 x1 s (ix2 k v) : EReal) = ((Real.exp (xr k v - M') / wr (ur k v) : ℝ) : EReal) := by
  unfold k0_pay10
  -- the entry is exp (logit - new bound) over 0 - log (clip noise)
  show Ideal.div
      (Ideal.exp (k0_pay7 (F := Ideal) x0 (ix2 k v)
        - broadcastTo S128x6400 (k0_pay8 (F := Ideal) x0 s) broadcasts_S128x1_S128x6400 (ix2 k v)))
      (Ideal.ofBits .f32 0x00000000#32
        - Ideal.log (min (Ideal.ofBits .f32 0x3F7FFFFE#32) (max (Ideal.ofBits .f32 0x2EDBE6FF#32)
            (shapeCast S128x6400 x1 shapeCasts_S1x128x6400_S128x6400 (ix2 k v))))) = _
  rw [bcast_col_6400, hM, pay7_apply, hx, shapeCast_1ab_ab_apply, hu, Ideal.ofBits_zero_f32, weight_coe,
    ← EReal.coe_sub, Ideal.exp_coe, div_coe_coe _ _ (wr_pos _).ne']

/-- The new denominator of row `k`: carried · factor + the row sum of the tile's weighted exponentials. -/
theorem den_apply (x0 x1 : Vec Ideal S1x128x6400 .f32) (s s' l : Vec Ideal S128x1 .f32) (xr ur : Fin 128 → Fin 6400 → ℝ)
    (hx : ∀ k v, (x0 (ix3 (0 : Fin 1) k v) : EReal) = ((xr k v : ℝ) : EReal))
    (hu : ∀ k v, (x1 (ix3 (0 : Fin 1) k v) : EReal) = ((ur k v : ℝ) : EReal))
    (k : Fin 128) (M' : ℝ) (hM : (k0_pay8 (F := Ideal) x0 s (ix2 k (0 : Fin 1)) : EReal) = ((M' : ℝ) : EReal)) :
    (k0_pay11 (F := Ideal) x0 x1 s s' l (ix2 k (0 : Fin 1)) : EReal)
      = (l (ix2 k (0 : Fin 1)) : EReal) * (k0_pay9 (F := Ideal) x0 s s' (ix2 k (0 : Fin 1)) : EReal)
        + ((∑ v : Fin 6400, Real.exp (xr k v - M') / wr (ur k v) : ℝ) : EReal) := by
  -- the sum along row k's lanes of the weighted exponentials is the coerced sum of their real values
  have hsum : multiReduction (F := Ideal) .add [1] S128 (k0_pay10 x0 x1 s) 0x00000000#32 reduces_S128x6400_S128 (.inl rfl) rfl (ix1 k)
      = ((∑ v : Fin 6400, Real.exp (xr k v - M') / wr (ur k v) : ℝ) : EReal) := by
    refine (Ideal.multiReduction_add_single _ _ _ _ _ _).trans ?_
    refine Eq.trans ?_ (sum_coe Finset.univ fun v : Fin 6400 => Real.exp (xr k v - M') / wr (ur k v))
    exact Finset.sum_congr rfl fun (v : Fin 6400) _ =>
      (congrArg (k0_pay10 (F := Ideal) x0 x1 s) (lift_row k v)).trans (prob_apply x0 x1 s xr ur hx hu k M' hM v)
  unfold k0_pay11
  rw [shapeCast_self, addf_apply, mulf_apply, cast_col, hsum]

/-! ## The new numerator and the output -/

/-! The body's matrix product contracts the lanes of its left operand (axis 1) with the rows of its right operand
(axis 0). At output index (k, j) and contraction position q the left operand is read at (k, q) and the right at
(q, j): the four coordinates, one statement each. -/

private theorem lhs_ax0 (k j : Fin 128) (q : dot_S128x6400_S6400x128_S128x128_1_0_0_1_n_n.contr.Idx) :
    (dot_S128x6400_S6400x128_S128x128_1_0_0_1_n_n.lhsIdx (ix2 k j) q 0).val = k.val := rfl
private theorem lhs_ax1 (k j : Fin 128) (q : dot_S128x6400_S6400x128_S128x128_1_0_0_1_n_n.contr.Idx) :
    (dot_S128x6400_S6400x128_S128x128_1_0_0_1_n_n.lhsIdx (ix2 k j) q 1).val = (q ⟨0, by decide⟩).val := rfl
private theorem rhs_ax0 (k j : Fin 128) (q : dot_S128x6400_S6400x128_S128x128_1_0_0_1_n_n.contr.Idx) :
    (dot_S128x6400_S6400x128_S128x128_1_0_0_1_n_n.rhsIdx (ix2 k j) q 0).val = (q ⟨0, by decide⟩).val := rfl
private theorem rhs_ax1 (k j : Fin 128) (q : dot_S128x6400_S6400x128_S128x128_1_0_0_1_n_n.contr.Idx) :
    (dot_S128x6400_S6400x128_S128x128_1_0_0_1_n_n.rhsIdx (ix2 k j) q 1).val = j.val := rfl

/-- The matrix product into the zero splat, read at (k, j): the sum over the 6400 contracted coordinates of the
    products of the operands' entries. -/
private theorem matprod_apply {φ₁ φ₂ : FTy} (A : FVec Ideal S128x6400 φ₁) (B : FVec Ideal S6400x128 φ₂) (k j : Fin 128) :
    matmul dot_S128x6400_S6400x128_S128x128_1_0_0_1_n_n none A B (constant (F := Ideal) S128x128 .f32 0x00000000#32) (ix2 k j)
      = ∑ c : Fin 6400, A (ix2 k c) * B (ix2 c j) := by
  show FloatOps.matmul dot_S128x6400_S6400x128_S128x128_1_0_0_1_n_n none A B
      (constant (F := Ideal) S128x128 .f32 0x00000000#32) (ix2 k j) = _
  rw [Ideal.matmul_constant_zero_apply,
    ← Equiv.sum_comp (contrEquiv1 dot_S128x6400_S6400x128_S128x128_1_0_0_1_n_n 6400 rfl rfl).symm]
  refine Finset.sum_congr rfl fun c _ => ?_
  have hc := contrEquiv1_symm_val dot_S128x6400_S6400x128_S128x128_1_0_0_1_n_n 6400 rfl rfl c
  have hl : dot_S128x6400_S6400x128_S128x128_1_0_0_1_n_n.lhsIdx (ix2 k j)
      ((contrEquiv1 dot_S128x6400_S6400x128_S128x128_1_0_0_1_n_n 6400 rfl rfl).symm c) = ix2 k c := by
    funext ax; apply Fin.ext
    match ax with
    | ⟨0, _⟩ => exact lhs_ax0 k j _
    | ⟨1, _⟩ => exact (lhs_ax1 k j _).trans hc
  have hr : dot_S128x6400_S6400x128_S128x128_1_0_0_1_n_n.rhsIdx (ix2 k j)
      ((contrEquiv1 dot_S128x6400_S6400x128_S128x128_1_0_0_1_n_n 6400 rfl rfl).symm c) = ix2 c j := by
    funext ax; apply Fin.ext
    match ax with
    | ⟨0, _⟩ => exact (rhs_ax0 k j _).trans hc
    | ⟨1, _⟩ => exact rhs_ax1 k j _
  rw [hl, hr]

/-! The 0/1 matrix: a compare of 32-bit words, widened and read as a signed integer. -/

/-- A compare for equality is the bit 1 exactly when the words are equal. -/
private theorem cmpi_eq_one_iff (a b : BitVec 32) : IntOp.cmpi .eq a b = 1#1 ↔ a = b := by
  show BitVec.ofBool (a == b) = 1#1 ↔ a = b
  by_cases h : a = b
  · simp [h]
  · have hb : (a == b) = false := beq_eq_false_iff_ne.mpr h
    rw [hb]
    exact iff_of_false (by decide) h

/-- Column v of tile tt against the label L less 6400 tt, as words: none of the numbers comes near 2³², so the words
    are equal exactly when 6400 tt + v = L. -/
private theorem word_eq_iff (tt v L : ℕ) (htt : tt < 5) (hv : v < 6400) (hL : L < 32000) :
    BitVec.ofNat 32 v = BitVec.ofNat 32 L - BitVec.ofNat 32 tt * 6400#32 ↔ 6400 * tt + v = L := by
  constructor
  · intro h
    have h' := congrArg BitVec.toNat h
    simp only [BitVec.toNat_sub, BitVec.toNat_mul, BitVec.toNat_ofNat, Nat.reducePow, Nat.reduceMod] at h'
    omega
  · intro h
    apply BitVec.eq_of_toNat_eq
    simp only [BitVec.toNat_sub, BitVec.toNat_mul, BitVec.toNat_ofNat, Nat.reducePow, Nat.reduceMod]
    omega

/-- A bit widened to 32 bits and read as a signed integer is the real 1 or 0. -/
private theorem sitofp_bit (c : BitVec 1) (P : Prop) [Decidable P] (h : c = 1#1 ↔ P) :
    (FloatOps.sitofp (F := Ideal) .f32 (c.setWidth 32) : EReal) = (((if P then (1 : ℝ) else 0) : ℝ) : EReal) := by
  show (((c.setWidth 32).toInt : ℝ) : EReal) = _
  rcases BitVec.eq_zero_or_eq_one c with rfl | rfl
  · have hP : ¬P := fun hp => absurd (h.mpr hp) (by decide)
    rw [if_neg hP]
    have h0 : (BitVec.setWidth 32 0#1).toInt = 0 := by decide
    rw [h0, Int.cast_zero]
  · rw [if_pos (h.mp rfl)]
    have h1 : (BitVec.setWidth 32 1#1).toInt = 1 := by decide
    rw [h1, Int.cast_one]

/-- Entry (v, j) of the 0/1 matrix of tile tt: one exactly when column 6400 tt + v is label j. -/
private theorem onehot_apply (tt : ℕ) (htt : tt < 5) (lab : Vec Ideal S1x1x128 .i32) (L : Fin 128 → ℕ) (hL : ∀ j, L j < 32000)
    (hlab : ∀ j, lab (ix3 (0 : Fin 1) (0 : Fin 1) j) = BitVec.ofNat 32 (L j)) (v : Fin 6400) (j : Fin 128) :
    ((truncf .bf16 (sitofp (F := Ideal) .f32 (extui 32 (cmpi .eq (iota .tc S6400x128 32 [0] iota_S6400x128_d0_w32)
        (broadcastTo S6400x128 (shapeCast S1x128 (subi (shapeCast S1x128 lab shapeCasts_S1x1x128_S1x128)
          (broadcast S1x128 (Scalar.muli (BitVec.ofNat 32 tt) 6400#32))) shapeCasts_S1x128_S1x128) broadcasts_S1x128_S6400x128))
        natLt_1_32)) bitsLt_bf16_f32 : FVec Ideal S6400x128 .bf16) (ix2 v j) : EReal)
      = (((if 6400 * tt + v.val = L j then (1 : ℝ) else 0) : ℝ) : EReal) := by
  -- the row coordinate, as a word
  have hword : (iota .tc S6400x128 32 [0] iota_S6400x128_d0_w32 (ix2 v j) : BitVec 32) = BitVec.ofNat 32 v.val :=
    iota_single_apply _ _ _ _ _ _
  -- the label less the tile's first column, as a word
  have hrow : (broadcastTo S6400x128 (shapeCast S1x128 (subi (shapeCast S1x128 lab shapeCasts_S1x1x128_S1x128)
        (broadcast S1x128 (Scalar.muli (BitVec.ofNat 32 tt) 6400#32))) shapeCasts_S1x128_S1x128) broadcasts_S1x128_S6400x128
        (ix2 v j) : BitVec 32)
      = BitVec.ofNat 32 (L j) - BitVec.ofNat 32 tt * 6400#32 := by
    rw [broadcastTo_1b_ab_apply, shapeCast_self]
    show shapeCast S1x128 lab shapeCasts_S1x1x128_S1x128 (ix2 (0 : Fin 1) j) - BitVec.ofNat 32 tt * 6400#32 = _
    rw [shapeCast_1ab_ab_apply, hlab]
  show FloatOps.sitofp (F := Ideal) .f32 ((IntOp.cmpi .eq (iota .tc S6400x128 32 [0] iota_S6400x128_d0_w32 (ix2 v j))
      (broadcastTo S6400x128 (shapeCast S1x128 (subi (shapeCast S1x128 lab shapeCasts_S1x1x128_S1x128)
        (broadcast S1x128 (Scalar.muli (BitVec.ofNat 32 tt) 6400#32))) shapeCasts_S1x128_S1x128) broadcasts_S1x128_S6400x128
        (ix2 v j))).setWidth 32) = _
  rw [hword, hrow]
  exact sitofp_bit _ _ ((cmpi_eq_one_iff _ _).trans (word_eq_iff tt v.val (L j) htt v.isLt (hL j)))

/-- The first product's sum: real entries times 0/1 entries. -/
private theorem sum_first (p : FVec Ideal S128x6400 .f32) (E : FVec Ideal S6400x128 .bf16) (k j : Fin 128) (pr er : Fin 6400 → ℝ)
    (hp : ∀ v, (p (ix2 k v) : EReal) = ((pr v : ℝ) : EReal)) (hE : ∀ v, (E (ix2 v j) : EReal) = ((er v : ℝ) : EReal)) :
    ∑ c : Fin 6400, (truncf .bf16 p bitsLt_bf16_f32 : FVec Ideal S128x6400 .bf16) (ix2 k c) * E (ix2 c j)
      = ((∑ v : Fin 6400, pr v * er v : ℝ) : EReal) := by
  rw [← sum_coe]
  refine Finset.sum_congr rfl fun c _ => ?_
  rw [truncf_apply, hp, hE, EReal.coe_mul]

/-- The second product's sum: its left operand p - p is zero at real entries, so the sum is zero. -/
private theorem sum_second (p : FVec Ideal S128x6400 .f32) (E : FVec Ideal S6400x128 .bf16) (k j : Fin 128) (pr : Fin 6400 → ℝ)
    (hp : ∀ v, (p (ix2 k v) : EReal) = ((pr v : ℝ) : EReal)) :
    ∑ c : Fin 6400, (truncf .bf16 (subf p p) bitsLt_bf16_f32 : FVec Ideal S128x6400 .bf16) (ix2 k c) * E (ix2 c j) = 0 := by
  refine Finset.sum_eq_zero fun c _ => ?_
  rw [truncf_apply, subf_apply, hp, ← EReal.coe_sub, sub_self, EReal.coe_zero, zero_mul]

/-- Entry (k, j) of the new numerator at tile `tt`: carried · factor + the sum over the tile's columns `v` of the weighted
    exponential times the 0/1 entry "column `6400 tt + v` is label `j`", when row `k`'s weighted exponentials are the reals `pr`
    and the labels are the words of numbers below 32000. -/
theorem num_apply (tt : ℕ) (htt : tt < 5) (fac : FVec Ideal S128x1 .f32) (p : FVec Ideal S128x6400 .f32)
    (lab : Vec Ideal S1x1x128 .i32) (acc : Vec Ideal S128x128 .f32) (k j : Fin 128) (pr : Fin 6400 → ℝ)
    (hp : ∀ v, (p (ix2 k v) : EReal) = ((pr v : ℝ) : EReal))
    (L : Fin 128 → ℕ) (hL : ∀ j, L j < 32000) (hlab : ∀ j, lab (ix3 (0 : Fin 1) (0 : Fin 1) j) = BitVec.ofNat 32 (L j)) :
    (k0_pay1 (F := Ideal) (BitVec.ofNat 32 tt) fac p lab acc (ix2 k j) : EReal)
      = (acc (ix2 k j) : EReal) * (fac (ix2 k (0 : Fin 1)) : EReal)
        + ((∑ v : Fin 6400, pr v * (if 6400 * tt + v.val = L j then (1 : ℝ) else 0) : ℝ) : EReal) := by
  unfold k0_pay1
  rw [shapeCast_self, addf_apply, mulf_apply, bcast_col_128, addf_apply, matprod_apply, matprod_apply,
    sum_first p _ k j pr _ hp (fun v => onehot_apply tt htt lab L hL hlab v j), sum_second p _ k j pr hp, add_zero]

/-- Entry (k, j) of the output block: numerator over denominator. -/
theorem out_apply (a : Vec Ideal S128x128 .f32) (l : Vec Ideal S128x1 .f32) (k j : Fin 128) :
    (k0_pay3 (F := Ideal) a l (ix3 (0 : Fin 1) k j) : EReal)
      = Ideal.div (a (ix2 k j) : EReal) (l (ix2 k (0 : Fin 1)) : EReal) := by
  unfold k0_pay3
  rw [shapeCast_ab_1ab_apply, divf_apply, bcast_col_128]

end Cert.KernelIdeal.Payload

end
-- ==== Proof.Online.lean ====
/-
  The online softmax over the reals, one row at a time.

  A row of the vocabulary is cut into tiles of 6400 entries; entry `v` of tile `t` carries a logit `x t v`, a positive
  weight `w t v` and, for each of the 128 gathered columns `j`, a factor `oh t v j`. At a shift `M` the entry's weighted
  exponential is `exp (x t v - M) / w t v`. The kernel carries, from tile to tile, the sum of these over the tiles seen so
  far (`Lc`) and the same sum with each term multiplied by its factor (`Ac`), both taken at the CURRENT shift; moving the shift
  from `M` to `M'` multiplies every term by `exp (M - M')`, which is what the rescaling step of the kernel does. After the
  last tile the quotient `Ac / Lc` no longer depends on the shift, and with 0/1 factors that pick one entry it is that
  entry's softmax probability, the weights `1 / w` having become the summand `-log w` in the exponent.
-/
import Mathlib.Analysis.SpecialFunctions.Log.Basic

open scoped BigOperators

namespace Cert.Online

variable (x w : ℕ → Fin 6400 → ℝ) (oh : ℕ → Fin 6400 → Fin 128 → ℝ)

/-- One entry's weighted exponential at the shift `M`. -/
noncomputable def ev (M : ℝ) (t : ℕ) (v : Fin 6400) : ℝ := Real.exp (x t v - M) / w t v

/-- The carried denominator after `n` tiles, at the shift `M`. -/
noncomputable def Lc (M : ℝ) (n : ℕ) : ℝ := ∑ t ∈ Finset.range n, ∑ v : Fin 6400, ev x w M t v

/-- The carried numerator of column `j` after `n` tiles, at the shift `M`. -/
noncomputable def Ac (M : ℝ) (n : ℕ) (j : Fin 128) : ℝ := ∑ t ∈ Finset.range n, ∑ v : Fin 6400, ev x w M t v * oh t v j

/-- Moving the shift from `M` to `M'` multiplies an entry's term by `exp (M - M')`. -/
theorem ev_shift (M M' : ℝ) (t : ℕ) (v : Fin 6400) : ev x w M t v * Real.exp (M - M') = ev x w M' t v := by
  unfold ev
  rw [div_mul_eq_mul_div, ← Real.exp_add]
  have h : x t v - M + (M - M') = x t v - M' := by ring
  rw [h]

/-- The first tile: the carried denominator is the tile's own sum. -/
theorem Lc_one (M' : ℝ) : (∑ v : Fin 6400, ev x w M' 0 v) = Lc x w M' 1 := by
  unfold Lc
  rw [Finset.sum_range_one]

/-- A later tile: the old denominator rescaled to the new shift, plus the tile's own sum. -/
theorem Lc_step (M M' : ℝ) (n : ℕ) :
    Lc x w M n * Real.exp (M - M') + ∑ v : Fin 6400, ev x w M' n v = Lc x w M' (n + 1) := by
  unfold Lc
  rw [Finset.sum_range_succ, Finset.sum_mul]
  congr 1
  refine Finset.sum_congr rfl (fun t _ => ?_)
  rw [Finset.sum_mul]
  exact Finset.sum_congr rfl (fun v _ => ev_shift x w M M' t v)

/-- The first tile: the carried numerator is the tile's own gathered sum. -/
theorem Ac_one (M' : ℝ) (j : Fin 128) : (∑ v : Fin 6400, ev x w M' 0 v * oh 0 v j) = Ac x w oh M' 1 j := by
  unfold Ac
  rw [Finset.sum_range_one]

/-- A later tile: the old numerator rescaled to the new shift, plus the tile's own gathered sum. -/
theorem Ac_step (M M' : ℝ) (n : ℕ) (j : Fin 128) :
    Ac x w oh M n j * Real.exp (M - M') + ∑ v : Fin 6400, ev x w M' n v * oh n v j = Ac x w oh M' (n + 1) j := by
  unfold Ac
  rw [Finset.sum_range_succ, Finset.sum_mul]
  congr 1
  refine Finset.sum_congr rfl (fun t _ => ?_)
  rw [Finset.sum_mul]
  refine Finset.sum_congr rfl (fun v _ => ?_)
  rw [mul_right_comm, ev_shift]

/-- With positive weights the denominator is positive as soon as one tile has been seen. -/
theorem Lc_pos (hw : ∀ t v, 0 < w t v) (M : ℝ) (n : ℕ) (hn : 0 < n) : 0 < Lc x w M n := by
  unfold Lc
  refine Finset.sum_pos (fun t _ => ?_) (Finset.nonempty_range_iff.mpr hn.ne')
  refine Finset.sum_pos (fun v _ => ?_) Finset.univ_nonempty
  exact div_pos (Real.exp_pos _) (hw t v)

/-- Entry `v` of tile `t` as an entry of the whole row of 32000. -/
def tileIdx (t : Fin 5) (v : Fin 6400) : Fin 32000 := ⟨6400 * t.val + v.val, by have := t.isLt; have := v.isLt; omega⟩

/-- Cutting the row into five tiles of 6400 is a bijection: entry `i` of the row is entry `i % 6400` of tile `i / 6400`. -/
private def tileEquiv : Fin 5 × Fin 6400 ≃ Fin 32000 where
  toFun p := tileIdx p.1 p.2
  invFun i := (⟨i.val / 6400, by have := i.isLt; omega⟩, ⟨i.val % 6400, by omega⟩)
  left_inv := by
    rintro ⟨t, v⟩
    have ht := t.isLt
    have hv := v.isLt
    refine Prod.ext (Fin.ext ?_) (Fin.ext ?_)
    · show (6400 * t.val + v.val) / 6400 = t.val
      omega
    · show (6400 * t.val + v.val) % 6400 = v.val
      omega
  right_inv := by
    intro i
    refine Fin.ext ?_
    show 6400 * (i.val / 6400) + i.val % 6400 = i.val
    omega

/-- A sum over the five tiles and the 6400 entries of each is the sum over the whole row. -/
private theorem sum_tiles (g : ℕ → Fin 6400 → ℝ) (f : Fin 32000 → ℝ)
    (h : ∀ (t : Fin 5) (v : Fin 6400), g t.val v = f (tileIdx t v)) :
    ∑ t ∈ Finset.range 5, ∑ v : Fin 6400, g t v = ∑ i : Fin 32000, f i := by
  rw [Finset.sum_range (fun t => ∑ v : Fin 6400, g t v)]
  simp only [h]
  rw [← Fintype.sum_prod_type' (fun t v => f (tileIdx t v))]
  exact Fintype.sum_equiv tileEquiv _ _ (fun _ => rfl)

/-- After all five tiles, with factors that pick entry `l j` of the row: the carried quotient is the softmax probability
    of that entry for the logits `X v - log (W v)`, whatever the shift `M` the kernel ended at and whatever shift `S`
    the softmax subtracts. -/
theorem gather_softmax (X W : Fin 32000 → ℝ) (hW : ∀ v, 0 < W v) (l : Fin 128 → Fin 32000) (M S : ℝ)
    (hx : ∀ (t : Fin 5) (v : Fin 6400), x t.val v = X (tileIdx t v))
    (hw : ∀ (t : Fin 5) (v : Fin 6400), w t.val v = W (tileIdx t v))
    (hoh : ∀ (t : Fin 5) (v : Fin 6400) (j : Fin 128), oh t.val v j = if tileIdx t v = l j then 1 else 0)
    (j : Fin 128) :
    Ac x w oh M 5 j / Lc x w M 5
      = Real.exp (X (l j) + -Real.log (W (l j)) - S) / ∑ v : Fin 32000, Real.exp (X v + -Real.log (W v) - S) := by
  -- every entry's term is the softmax summand of its row entry times the one constant `exp (S - M)`,
  -- because `exp (-log W) = 1 / W` for a positive weight
  have hev : ∀ (t : Fin 5) (v : Fin 6400), ev x w M t.val v
      = Real.exp (S - M) * Real.exp (X (tileIdx t v) + -Real.log (W (tileIdx t v)) - S) := by
    intro t v
    unfold ev
    rw [hx t v, hw t v, ← Real.exp_add]
    have h : S - M + (X (tileIdx t v) + -Real.log (W (tileIdx t v)) - S)
        = (X (tileIdx t v) - M) + -Real.log (W (tileIdx t v)) := by ring
    rw [h, Real.exp_add, Real.exp_neg, Real.exp_log (hW _), div_eq_mul_inv]
  -- the denominator: the constant times the softmax denominator
  have hL : Lc x w M 5 = Real.exp (S - M) * ∑ i : Fin 32000, Real.exp (X i + -Real.log (W i) - S) := by
    unfold Lc
    rw [sum_tiles (fun t v => ev x w M t v)
      (fun i => Real.exp (S - M) * Real.exp (X i + -Real.log (W i) - S)) hev, ← Finset.mul_sum]
  -- the numerator: the 0/1 factors leave the single term at `l j`
  have hA : Ac x w oh M 5 j = Real.exp (S - M) * Real.exp (X (l j) + -Real.log (W (l j)) - S) := by
    unfold Ac
    rw [sum_tiles (fun t v => ev x w M t v * oh t v j)
      (fun i => Real.exp (S - M) * Real.exp (X i + -Real.log (W i) - S) * (if i = l j then 1 else 0))
      (fun t v => by rw [hev t v, hoh t v j])]
    simp only [mul_ite, mul_one, mul_zero]
    rw [Finset.sum_ite_eq' Finset.univ (l j), if_pos (Finset.mem_univ _)]
  -- the constant is positive, so it cancels
  rw [hA, hL, mul_div_mul_left _ _ (Real.exp_pos (S - M)).ne']

end Cert.Online
-- ==== Proof.Step.lean ====
/-
  One tile's update of a row's carried triple, in closed form.

  Fix a row `k` of a 128 × 6400 tile whose logits and noise are reals, and read the row of the whole vocabulary as five
  tiles `x t`, `w t` (logits and weights) with 0/1 factors `oh t v j` ("column v of tile t is label j"). If before the run
  the carried bound of the row is a real `M` and the carried denominator and numerator are the sums `Lc M tt`, `Ac M tt j`
  over the `tt` tiles seen so far at the shift `M`, then after the run the bound is a real `M'` and the denominator and
  numerator are `Lc M' (tt + 1)`, `Ac M' (tt + 1) j`: the rescale factor exp (M - M') moves the old sums to the new shift,
  and the tile adds its own terms. At a row's first tile the buffers were just reset to -∞, 0, 0; the factor is then
  exp (-∞) = 0 and the sums start from the tile's own terms. At the last tile the output entry is the quotient.
-/
import proofs.«404316_j3822520893773_3_alg».proof.Proof.Payload
import proofs.«404316_j3822520893773_3_alg».proof.Proof.Online

noncomputable section

open scoped BigOperators
open Idealize.ShloMosaic Idealize.ShloMosaic.TcCoe Idealize.ShloMosaic.ValueIdx

namespace Cert.KernelIdeal.Step

open Cert.KernelIdeal Cert.KernelIdeal.Gen Cert.Reals Cert.Online

variable (x0 x1 : Vec Ideal S1x128x6400 .f32) (lab : Vec Ideal S1x1x128 .i32)
  (xr ur : Fin 128 → Fin 6400 → ℝ)
  (hx : ∀ k v, (x0 (ix3 (0 : Fin 1) k v) : EReal) = ((xr k v : ℝ) : EReal))
  (hu : ∀ k v, (x1 (ix3 (0 : Fin 1) k v) : EReal) = ((ur k v : ℝ) : EReal))
  (L : Fin 128 → ℕ) (hL : ∀ j, L j < 32000) (hlab : ∀ j, lab (ix3 (0 : Fin 1) (0 : Fin 1) j) = BitVec.ofNat 32 (L j))
  (tt : ℕ) (htt : tt < 5) (k : Fin 128)
  (x w : ℕ → Fin 6400 → ℝ) (oh : ℕ → Fin 6400 → Fin 128 → ℝ)
  (hxt : ∀ v, x tt v = xr k v) (hwt : ∀ v, w tt v = wr (ur k v))
  (hoht : ∀ v j, oh tt v j = if 6400 * tt + v.val = L j then (1 : ℝ) else 0)

include hx hu hL hlab htt hxt hwt hoht

/-- A row's first tile (`tt = 0`), run over the reset constants. -/
theorem first_step (h0 : tt = 0) : ∃ M' : ℝ,
    (k0_pay2 (F := Ideal) (k0_pay8 x0 (k0_pay4 (F := Ideal))) (ix2 k (0 : Fin 1)) : EReal) = ((M' : ℝ) : EReal)
    ∧ (k0_pay11 (F := Ideal) x0 x1 (k0_pay4 (F := Ideal)) (k0_pay4 (F := Ideal)) (k0_pay5 (F := Ideal)) (ix2 k (0 : Fin 1)) : EReal)
        = ((Lc x w M' 1 : ℝ) : EReal)
    ∧ ∀ j : Fin 128,
        (k0_pay1 (F := Ideal) (BitVec.ofNat 32 tt) (k0_pay9 x0 (k0_pay4 (F := Ideal)) (k0_pay4 (F := Ideal)))
            (k0_pay10 x0 x1 (k0_pay4 (F := Ideal))) lab (k0_pay6 (F := Ideal)) (ix2 k j) : EReal)
          = ((Ac x w oh M' 1 j : ℝ) : EReal) := by
  subst h0
  -- the carried bound is -∞, so the new bound is the tile row's own real
  obtain ⟨r, hr⟩ := Payload.bound_apply x0 (k0_pay4 (F := Ideal)) xr hx k
  rw [Payload.reset_bound k, max_bot_coe] at hr
  -- the rescale factor is exp (-∞ - r) = exp (-∞) = 0
  have hfac : (k0_pay9 (F := Ideal) x0 (k0_pay4 (F := Ideal)) (k0_pay4 (F := Ideal)) (ix2 k (0 : Fin 1)) : EReal) = 0 := by
    rw [Payload.factor_apply, hr, Payload.reset_bound k, bot_sub_coe, Ideal.exp_bot]
  refine ⟨r, ?_, ?_, ?_⟩
  · rw [Payload.bound_store]
    exact hr
  · -- 0 · 0 + the tile's own sum
    have hsum : (∑ v : Fin 6400, Real.exp (xr k v - r) / wr (ur k v)) = ∑ v : Fin 6400, ev x w r 0 v := by
      refine Finset.sum_congr rfl (fun v _ => ?_)
      unfold ev
      rw [hxt v, hwt v]
    rw [Payload.den_apply x0 x1 _ _ _ xr ur hx hu k r hr, Payload.reset_den k, hfac, mul_zero, zero_add, hsum,
      Online.Lc_one]
  · intro j
    have hsum : (∑ v : Fin 6400, Real.exp (xr k v - r) / wr (ur k v) * (if 6400 * 0 + v.val = L j then (1 : ℝ) else 0))
        = ∑ v : Fin 6400, ev x w r 0 v * oh 0 v j := by
      refine Finset.sum_congr rfl (fun v _ => ?_)
      unfold ev
      rw [hxt v, hwt v, hoht v j]
    rw [Payload.num_apply 0 htt _ _ lab _ k j (fun v => Real.exp (xr k v - r) / wr (ur k v))
      (fun v => Payload.prob_apply x0 x1 _ xr ur hx hu k r hr v) L hL hlab, Payload.reset_num k j, hfac, mul_zero,
      zero_add, hsum, Online.Ac_one]

/-- A later tile, run over a carried triple in closed form at the shift `M`. -/
theorem next_step (s l : Vec Ideal S128x1 .f32) (acc : Vec Ideal S128x128 .f32) (M : ℝ)
    (hs : (s (ix2 k (0 : Fin 1)) : EReal) = ((M : ℝ) : EReal))
    (hl : (l (ix2 k (0 : Fin 1)) : EReal) = ((Lc x w M tt : ℝ) : EReal))
    (hacc : ∀ j : Fin 128, (acc (ix2 k j) : EReal) = ((Ac x w oh M tt j : ℝ) : EReal)) : ∃ M' : ℝ,
    (k0_pay2 (F := Ideal) (k0_pay8 x0 s) (ix2 k (0 : Fin 1)) : EReal) = ((M' : ℝ) : EReal)
    ∧ (k0_pay11 (F := Ideal) x0 x1 s s l (ix2 k (0 : Fin 1)) : EReal) = ((Lc x w M' (tt + 1) : ℝ) : EReal)
    ∧ ∀ j : Fin 128,
        (k0_pay1 (F := Ideal) (BitVec.ofNat 32 tt) (k0_pay9 x0 s s) (k0_pay10 x0 x1 s) lab acc (ix2 k j) : EReal)
          = ((Ac x w oh M' (tt + 1) j : ℝ) : EReal) := by
  -- the new bound is the larger of the carried real and the tile row's real
  obtain ⟨r, hr⟩ := Payload.bound_apply x0 s xr hx k
  rw [hs, max_coe_coe] at hr
  -- the rescale factor is exp (M - M')
  have hfac : (k0_pay9 (F := Ideal) x0 s s (ix2 k (0 : Fin 1)) : EReal) = ((Real.exp (M - max M r) : ℝ) : EReal) := by
    rw [Payload.factor_apply, hr, hs, ← EReal.coe_sub, Ideal.exp_coe]
  refine ⟨max M r, ?_, ?_, ?_⟩
  · rw [Payload.bound_store]
    exact hr
  · -- the old sum moved to the new shift, plus the tile's own sum
    have hsum : (∑ v : Fin 6400, Real.exp (xr k v - max M r) / wr (ur k v)) = ∑ v : Fin 6400, ev x w (max M r) tt v := by
      refine Finset.sum_congr rfl (fun v _ => ?_)
      unfold ev
      rw [hxt v, hwt v]
    rw [Payload.den_apply x0 x1 s s l xr ur hx hu k (max M r) hr, hl, hfac, ← EReal.coe_mul, ← EReal.coe_add, hsum,
      Online.Lc_step]
  · intro j
    have hsum : (∑ v : Fin 6400, Real.exp (xr k v - max M r) / wr (ur k v)
          * (if 6400 * tt + v.val = L j then (1 : ℝ) else 0))
        = ∑ v : Fin 6400, ev x w (max M r) tt v * oh tt v j := by
      refine Finset.sum_congr rfl (fun v _ => ?_)
      unfold ev
      rw [hxt v, hwt v, hoht v j]
    rw [Payload.num_apply tt htt _ _ lab acc k j (fun v => Real.exp (xr k v - max M r) / wr (ur k v))
      (fun v => Payload.prob_apply x0 x1 s xr ur hx hu k (max M r) hr v) L hL hlab, hacc j, hfac, ← EReal.coe_mul,
      ← EReal.coe_add, hsum, Online.Ac_step]

omit hx hu hL hlab htt hxt hwt hoht in
/-- The output entry at the last tile: the quotient of a real numerator by a nonzero real denominator. -/
theorem out_step (a : Vec Ideal S128x128 .f32) (l : Vec Ideal S128x1 .f32) (k j : Fin 128) (A D : ℝ) (hD : D ≠ 0)
    (ha : (a (ix2 k j) : EReal) = ((A : ℝ) : EReal)) (hl : (l (ix2 k (0 : Fin 1)) : EReal) = ((D : ℝ) : EReal)) :
    (k0_pay3 (F := Ideal) a l (ix3 (0 : Fin 1) k j) : EReal) = ((A / D : ℝ) : EReal) := by
  rw [Payload.out_apply, ha, hl, div_coe_coe A D hD]

end Cert.KernelIdeal.Step

end
-- ==== Proof.Blocks.lean ====
/-
  What the kernel's three input windows hold at a grid point, read off the argument arrays.

  The grid has 16 × 5 points, the batch row varying slowest: point `t` works on batch row `t / 5` and on vocabulary tile
  `t % 5`. The logits window and the noise window hold, at that point, the 128 × 6400 tile of their array at row `t / 5`
  and columns `6400 (t % 5) … 6400 (t % 5) + 6399`; the label window holds the 128 labels of row `t / 5` (the host reshapes
  the labels to 16 × 1 × 128 before the call, which moves no entry). The body's second grid coordinate is the tile number.
-/
import proofs.«404316_j3822520893773_3_alg».proof.Proof.Gen.KernelIdeal.Frame.Runs
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F] [Named F]
variable (m : (ℓ : Loc nD τ sig) → Buf (Elt F) ℓ)

/-- The batch row grid point `t` works on. -/
def rowOf (t : Fin cfg0.N) : Fin 16 := ⟨t.val / 5, by have := t.isLt; have h : cfg0.N = 80 := N_0; omega⟩
/-- Column `v` of the tile grid point `t` works on, as a column of the whole vocabulary. -/
def colOf (t : Fin cfg0.N) (v : Fin 6400) : Fin 32000 := ⟨6400 * (t.val % 5) + v.val, by have := v.isLt; omega⟩

/-- The body's second grid coordinate is the tile number. -/
theorem coord_tile (t : Fin cfg0.N) : ((grid0.coords t) 1).val = t.val % 5 :=
  (by decide +kernel : ∀ t : Fin grid0.N, ((grid0.coords t) 1).val = t.val % 5) t

/-- The logits window's block index at point `t`, axis by axis — decided over the grid. -/
theorem idx0_0 (t : Fin cfg0.N) :
    win0_0.index t (0 : Fin 3) = t.val / 5 ∧ win0_0.index t (1 : Fin 3) = 0 ∧ win0_0.index t (2 : Fin 3) = t.val % 5 :=
  (by decide +kernel : ∀ t : Fin grid0.N,
    win0_0.index t (0 : Fin 3) = t.val / 5 ∧ win0_0.index t (1 : Fin 3) = 0 ∧ win0_0.index t (2 : Fin 3) = t.val % 5) t

/-- The logits window at point `t`: row `t / 5`, the tile's columns. -/
theorem logits_block (c : Dev nD) (t : Fin cfg0.N) (k : Fin 128) (v : Fin 6400) :
    (iblk m c 0 t : Vec F S1x128x6400 .f32) (ix3 (0 : Fin 1) k v)
      = (m ((c : Thread nD τ).loc main_arg0) : Vec F S16x128x32000 .f32) (ix3 (rowOf t) k (colOf t v)) := by
  have hi := idx0_0 t
  unfold iblk
  rw [View.read_apply]
  show V m c main_arg0 _ = _
  rw [V_main_arg0 m c]
  congr 1
  funext a
  apply Fin.ext
  match a with
  | ⟨0, _⟩ => show win0_0.index t 0 * 1 + 1 * (0 : Nat) = t.val / 5; rw [hi.1]; omega
  | ⟨1, _⟩ => show win0_0.index t 1 * 128 + 1 * k.val = k.val; rw [hi.2.1]; omega
  | ⟨2, _⟩ => show win0_0.index t 2 * 6400 + 1 * v.val = 6400 * (t.val % 5) + v.val; rw [hi.2.2]; omega

/-- The noise window's block index at point `t`, axis by axis — decided over the grid. -/
theorem idx0_1 (t : Fin cfg0.N) :
    win0_1.index t (0 : Fin 3) = t.val / 5 ∧ win0_1.index t (1 : Fin 3) = 0 ∧ win0_1.index t (2 : Fin 3) = t.val % 5 :=
  (by decide +kernel : ∀ t : Fin grid0.N,
    win0_1.index t (0 : Fin 3) = t.val / 5 ∧ win0_1.index t (1 : Fin 3) = 0 ∧ win0_1.index t (2 : Fin 3) = t.val % 5) t

/-- The noise window at point `t`: the same tile of the noise array. -/
theorem noise_block (c : Dev nD) (t : Fin cfg0.N) (k : Fin 128) (v : Fin 6400) :
    (iblk m c 1 t : Vec F S1x128x6400 .f32) (ix3 (0 : Fin 1) k v)
      = (m ((c : Thread nD τ).loc main_arg2) : Vec F S16x128x32000 .f32) (ix3 (rowOf t) k (colOf t v)) := by
  have hi := idx0_1 t
  unfold iblk
  rw [View.read_apply]
  show V m c main_arg2 _ = _
  rw [V_main_arg2 m c]
  congr 1
  funext a
  apply Fin.ext
  match a with
  | ⟨0, _⟩ => show win0_1.index t 0 * 1 + 1 * (0 : Nat) = t.val / 5; rw [hi.1]; omega
  | ⟨1, _⟩ => show win0_1.index t 1 * 128 + 1 * k.val = k.val; rw [hi.2.1]; omega
  | ⟨2, _⟩ => show win0_1.index t 2 * 6400 + 1 * v.val = 6400 * (t.val % 5) + v.val; rw [hi.2.2]; omega

/-- What the region finds in the reshaped label buffer: the one host operation before the region wrote there the
    16 × 128 label array re-indexed as 16 × 1 × 128. -/
theorem V_main_v0 (c : Dev nD) :
    V m c main_v0
      = shapeCast S16x1x128 (m ((c : Thread nD τ).loc main_arg1) : Vec F S16x128 .i32) shapeCasts_S16x128_S16x1x128 := by
  show StableHlo.after (List.flatten [hostOps0]) (fun b => m (c, b)) (Proc.devRef .tc main_v0) = _
  simp only [Gen.hostOps0, List.flatten_cons, List.flatten_nil, List.append_nil]
  after_results
  rfl

/-- The label window's block index at point `t`, axis by axis — decided over the grid. -/
theorem idx0_2 (t : Fin cfg0.N) :
    win0_2.index t (0 : Fin 3) = t.val / 5 ∧ win0_2.index t (1 : Fin 3) = 0 ∧ win0_2.index t (2 : Fin 3) = 0 :=
  (by decide +kernel : ∀ t : Fin grid0.N,
    win0_2.index t (0 : Fin 3) = t.val / 5 ∧ win0_2.index t (1 : Fin 3) = 0 ∧ win0_2.index t (2 : Fin 3) = 0) t

/-- The label window at point `t`: the labels of row `t / 5`. -/
theorem label_block (c : Dev nD) (t : Fin cfg0.N) (j : Fin 128) :
    (iblk m c 2 t : Vec F S1x1x128 .i32) (ix3 (0 : Fin 1) (0 : Fin 1) j)
      = (m ((c : Thread nD τ).loc main_arg1) : Vec F S16x128 .i32) (ix2 (rowOf t) j) := by
  have hi := idx0_2 t
  unfold iblk
  rw [View.read_apply]
  show V m c main_v0 _ = _
  rw [V_main_v0 m c]
  refine shapeCast_apply _ _ _ (ix2 (rowOf t) j) ?_
  rw [Shape.rowMajor_val_two, Shape.rowMajor_val_three]
  show (t.val / 5) * 128 + j.val
    = ((win0_2.index t 0 * 1 + 1 * (0 : Nat)) * 1 + (win0_2.index t 1 * 1 + 1 * (0 : Nat))) * 128
      + (win0_2.index t 2 * 128 + 1 * j.val)
  rw [hi.1, hi.2.1, hi.2.2]
  omega

end Cert.KernelIdeal.Blocks

end
-- ==== Proof.Core.lean ====
/-
  The value both programs compute before their common host tail, over the reals.

  For batch row `b`, sequence position `k` and gathered column `j`, with the label `Lb b j` a vocabulary index: the softmax
  probability of that vocabulary entry for the logits `X + g`, where `g = -log w` is the Gumbel term of the noise and
  `w = -log (clip u)` its weight. `S b k` is the shift subtracted inside the exponentials; the value does not depend on it.
-/
import proofs.«404316_j3822520893773_3_alg».proof.Proof.Reals

open scoped BigOperators

namespace Cert.Core

open Cert.Reals

/-- Entry (b, k, j) of the gathered Gumbel-softmax, at the shift `S b k`. -/
noncomputable def coreR (Xr Ur : Fin 16 → Fin 128 → Fin 32000 → ℝ) (Lb : Fin 16 → Fin 128 → Fin 32000) (S : Fin 16 → Fin 128 → ℝ)
    (b : Fin 16) (k j : Fin 128) : ℝ :=
  Real.exp (Xr b k (Lb b j) + -Real.log (wr (Ur b k (Lb b j))) - S b k)
    / ∑ v : Fin 32000, Real.exp (Xr b k v + -Real.log (wr (Ur b k v)) - S b k)

end Cert.Core
-- ==== Proof.Invariant.lean ====
/-
  What the kernel's carried buffers hold after every grid point, and what its output block holds after a row's last tile.

  The grid runs batch row by batch row, five vocabulary tiles to a row. Reading a row (b, k) of the logits and of the
  noise weights as five tiles, and the labels of batch row b as 0/1 factors, the three carried buffers hold after the
  point of tile t, in row k of the buffers: a real shift M, the denominator `Lc M (t + 1)` and the numerators `Ac M (t + 1) j`
  of the tiles seen so far (by induction over the points: a row's first tile starts from the reset buffers, every later
  tile updates what the tile before left). After the fifth tile the output block holds numerator / denominator, which is
  the gathered softmax probability `coreR`, at any shift.
-/
import proofs.«404316_j3822520893773_3_alg».proof.Proof.Pieces
import proofs.«404316_j3822520893773_3_alg».proof.Proof.Step
import proofs.«404316_j3822520893773_3_alg».proof.Proof.Blocks
import proofs.«404316_j3822520893773_3_alg».proof.Proof.Core

set_option maxRecDepth 16384

noncomputable section

open scoped BigOperators
open Idealize.ShloMosaic Idealize.ShloMosaic.TcCoe Idealize.SL.Sem Idealize.ShloMosaic.ValueIdx

namespace Cert.KernelIdeal.Invariant

open Cert.KernelIdeal Cert.KernelIdeal.Gen Cert.Reals Cert.Online Cert.Core

variable (m : (ℓ : Loc nD τ sig) → Buf (Elt Ideal) ℓ) (c : Dev nD)
  (Xr Ur : Fin 16 → Fin 128 → Fin 32000 → ℝ) (Lb : Fin 16 → Fin 128 → Fin 32000)

/-- Row (b, k) of the logits as five tiles. -/
def xT (b : Fin 16) (k : Fin 128) : ℕ → Fin 6400 → ℝ := fun t v => if h : t < 5 then Xr b k (tileIdx ⟨t, h⟩ v) else 0
/-- Row (b, k) of the noise weights as five tiles. -/
def wT (b : Fin 16) (k : Fin 128) : ℕ → Fin 6400 → ℝ := fun t v => if h : t < 5 then wr (Ur b k (tileIdx ⟨t, h⟩ v)) else 1
/-- The labels of batch row b as 0/1 factors: column v of tile t is label j. -/
def ohT (b : Fin 16) : ℕ → Fin 6400 → Fin 128 → ℝ := fun t v j => if 6400 * t + v.val = (Lb b j).val then 1 else 0

/-- The batch row of the n-th grid point. -/
def rowN (n : ℕ) (hn : n < cfg0.N) : Fin 16 := Blocks.rowOf ⟨n, hn⟩

variable
  (hX : ∀ b k v, ((m ((c : Thread nD τ).loc main_arg0) : Vec Ideal S16x128x32000 .f32) (ix3 b k v) : EReal) = ((Xr b k v : ℝ) : EReal))
  (hU : ∀ b k v, ((m ((c : Thread nD τ).loc main_arg2) : Vec Ideal S16x128x32000 .f32) (ix3 b k v) : EReal) = ((Ur b k v : ℝ) : EReal))
  (hLab : ∀ b j, (m ((c : Thread nD τ).loc main_arg1) : Vec Ideal S16x128 .i32) (ix2 b j) = BitVec.ofNat 32 (Lb b j).val)

include hX hU hLab

/-! ## The tile a grid point works on -/

/-- The logits window at point t holds the reals of its tile. -/
private theorem logits_at (t : Fin cfg0.N) (k : Fin 128) (v : Fin 6400) :
    (((iblk m c 0 t : Vec Ideal S1x128x6400 .f32) (ix3 (0 : Fin 1) k v)) : EReal)
      = ((Xr (Blocks.rowOf t) k (Blocks.colOf t v) : ℝ) : EReal) := by
  rw [Blocks.logits_block m c t k v]
  exact hX _ _ _

/-- The noise window at point t holds the reals of its tile. -/
private theorem noise_at (t : Fin cfg0.N) (k : Fin 128) (v : Fin 6400) :
    (((iblk m c 1 t : Vec Ideal S1x128x6400 .f32) (ix3 (0 : Fin 1) k v)) : EReal)
      = ((Ur (Blocks.rowOf t) k (Blocks.colOf t v) : ℝ) : EReal) := by
  rw [Blocks.noise_block m c t k v]
  exact hU _ _ _

/-- The label window at point t holds the labels of its batch row. -/
private theorem labels_at (t : Fin cfg0.N) (j : Fin 128) :
    (iblk m c 2 t : Vec Ideal S1x1x128 .i32) (ix3 (0 : Fin 1) (0 : Fin 1) j)
      = BitVec.ofNat 32 (Lb (Blocks.rowOf t) j).val := by
  rw [Blocks.label_block m c t j]
  exact hLab _ _

omit hX hU hLab in
/-- Tile t % 5 of the row's logits is the tile point t works on. -/
private theorem xT_tile (t : Fin cfg0.N) (k : Fin 128) (v : Fin 6400) :
    xT Xr (Blocks.rowOf t) k (t.val % 5) v = Xr (Blocks.rowOf t) k (Blocks.colOf t v) := by
  have h : t.val % 5 < 5 := Nat.mod_lt _ (by norm_num)
  unfold xT
  rw [dif_pos h]
  rfl

omit hX hU hLab in
/-- Tile t % 5 of the row's weights is the tile point t works on. -/
private theorem wT_tile (t : Fin cfg0.N) (k : Fin 128) (v : Fin 6400) :
    wT Ur (Blocks.rowOf t) k (t.val % 5) v = wr (Ur (Blocks.rowOf t) k (Blocks.colOf t v)) := by
  have h : t.val % 5 < 5 := Nat.mod_lt _ (by norm_num)
  unfold wT
  rw [dif_pos h]
  rfl

omit hX hU hLab in
/-- The carried tuple depends on the point's number only. -/
private theorem outsAt0_congr (a b : ℕ) (ha : a < cfg0.N) (hb : b < cfg0.N) (e : a = b) :
    outsAt0 m c a ha = outsAt0 m c b hb := by
  subst e
  rfl

/-! ## One point's step, case by case -/

/-- A row's first tile: the buffers hold the first tile's sums at a real shift. -/
private theorem step_first (t : Fin cfg0.N) (h0 : t.val % 5 = 0) (h1 : ¬t.val % 5 = 4) (k : Fin 128) : ∃ M : ℝ,
    (((outsAt0 m c t.val t.isLt).2.1 : Vec Ideal S128x1 .f32) (ix2 k (0 : Fin 1)) : EReal) = ((M : ℝ) : EReal)
    ∧ (((outsAt0 m c t.val t.isLt).2.2.1 : Vec Ideal S128x1 .f32) (ix2 k (0 : Fin 1)) : EReal)
        = ((Lc (xT Xr (Blocks.rowOf t) k) (wT Ur (Blocks.rowOf t) k) M (t.val % 5 + 1) : ℝ) : EReal)
    ∧ ∀ j : Fin 128, (((outsAt0 m c t.val t.isLt).2.2.2 : Vec Ideal S128x128 .f32) (ix2 k j) : EReal)
        = ((Ac (xT Xr (Blocks.rowOf t) k) (wT Ur (Blocks.rowOf t) k) (ohT Lb (Blocks.rowOf t)) M (t.val % 5 + 1) j : ℝ) : EReal) := by
  rw [outsAt0_A m c t h0 h1]
  dsimp only
  rw [Pieces.first_bound (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h)),
    Pieces.first_den (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h)),
    Pieces.first_num (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h)),
    Blocks.coord_tile t]
  have e : t.val % 5 + 1 = 1 := by omega
  rw [e]
  exact Step.first_step (iblk m c 0 t) (iblk m c 1 t) (iblk m c 2 t)
    (fun k v => Xr (Blocks.rowOf t) k (Blocks.colOf t v)) (fun k v => Ur (Blocks.rowOf t) k (Blocks.colOf t v))
    (logits_at m c Xr Ur Lb hX hU hLab t) (noise_at m c Xr Ur Lb hX hU hLab t)
    (fun j => (Lb (Blocks.rowOf t) j).val) (fun j => (Lb (Blocks.rowOf t) j).isLt) (labels_at m c Xr Ur Lb hX hU hLab t)
    (t.val % 5) (Nat.mod_lt _ (by norm_num)) k
    (xT Xr (Blocks.rowOf t) k) (wT Ur (Blocks.rowOf t) k) (ohT Lb (Blocks.rowOf t))
    (xT_tile Xr t k) (wT_tile Ur t k) (fun v j => rfl) h0

/-- A middle tile: the buffers hold one more tile's sums, over what the point before left. -/
private theorem step_mid (t : Fin cfg0.N) (h0 : ¬t.val % 5 = 0) (h1 : ¬t.val % 5 = 4) (k : Fin 128)
    (p : ℕ) (hp : p < cfg0.N) (hpe : t.val = p + 1)
    (ih : ∃ M : ℝ,
      (((outsAt0 m c p hp).2.1 : Vec Ideal S128x1 .f32) (ix2 k (0 : Fin 1)) : EReal) = ((M : ℝ) : EReal)
      ∧ (((outsAt0 m c p hp).2.2.1 : Vec Ideal S128x1 .f32) (ix2 k (0 : Fin 1)) : EReal)
          = ((Lc (xT Xr (Blocks.rowOf t) k) (wT Ur (Blocks.rowOf t) k) M (t.val % 5) : ℝ) : EReal)
      ∧ ∀ j : Fin 128, (((outsAt0 m c p hp).2.2.2 : Vec Ideal S128x128 .f32) (ix2 k j) : EReal)
          = ((Ac (xT Xr (Blocks.rowOf t) k) (wT Ur (Blocks.rowOf t) k) (ohT Lb (Blocks.rowOf t)) M (t.val % 5) j : ℝ) : EReal)) :
    ∃ M : ℝ,
    (((outsAt0 m c t.val t.isLt).2.1 : Vec Ideal S128x1 .f32) (ix2 k (0 : Fin 1)) : EReal) = ((M : ℝ) : EReal)
    ∧ (((outsAt0 m c t.val t.isLt).2.2.1 : Vec Ideal S128x1 .f32) (ix2 k (0 : Fin 1)) : EReal)
        = ((Lc (xT Xr (Blocks.rowOf t) k) (wT Ur (Blocks.rowOf t) k) M (t.val % 5 + 1) : ℝ) : EReal)
    ∧ ∀ j : Fin 128, (((outsAt0 m c t.val t.isLt).2.2.2 : Vec Ideal S128x128 .f32) (ix2 k j) : EReal)
        = ((Ac (xT Xr (Blocks.rowOf t) k) (wT Ur (Blocks.rowOf t) k) (ohT Lb (Blocks.rowOf t)) M (t.val % 5 + 1) j : ℝ) : EReal) := by
  obtain ⟨M, hs, hl, hacc⟩ := ih
  rw [outsAt0_B m c t h0 h1]
  dsimp only
  rw [outsAt0_congr m c (t.val - 1) p (Nat.lt_of_le_of_lt (Nat.sub_le _ _) t.isLt) hp (by omega)]
  rw [Pieces.mid_bound (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c p hp).2.1 (outsAt0 m c p hp).2.2.1 (outsAt0 m c p hp).2.2.2 (fun h => h0 ((hcond0_0 t).mp h)) (fun h => h1 ((hcond0_1 t).mp h)),
    Pieces.mid_den (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c p hp).2.1 (outsAt0 m c p hp).2.2.1 (outsAt0 m c p hp).2.2.2 (fun h => h0 ((hcond0_0 t).mp h)) (fun h => h1 ((hcond0_1 t).mp h)),
    Pieces.mid_num (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c p hp).2.1 (outsAt0 m c p hp).2.2.1 (outsAt0 m c p hp).2.2.2 (fun h => h0 ((hcond0_0 t).mp h)) (fun h => h1 ((hcond0_1 t).mp h)),
    Blocks.coord_tile t]
  exact Step.next_step (iblk m c 0 t) (iblk m c 1 t) (iblk m c 2 t)
    (fun k v => Xr (Blocks.rowOf t) k (Blocks.colOf t v)) (fun k v => Ur (Blocks.rowOf t) k (Blocks.colOf t v))
    (logits_at m c Xr Ur Lb hX hU hLab t) (noise_at m c Xr Ur Lb hX hU hLab t)
    (fun j => (Lb (Blocks.rowOf t) j).val) (fun j => (Lb (Blocks.rowOf t) j).isLt) (labels_at m c Xr Ur Lb hX hU hLab t)
    (t.val % 5) (Nat.mod_lt _ (by norm_num)) k
    (xT Xr (Blocks.rowOf t) k) (wT Ur (Blocks.rowOf t) k) (ohT Lb (Blocks.rowOf t))
    (xT_tile Xr t k) (wT_tile Ur t k) (fun v j => rfl)
    (outsAt0 m c p hp).2.1 (outsAt0 m c p hp).2.2.1 (outsAt0 m c p hp).2.2.2 M hs hl hacc

/-- The last tile: the same update, over what the point before left. -/
private theorem step_last (t : Fin cfg0.N) (h0 : ¬t.val % 5 = 0) (h1 : t.val % 5 = 4) (k : Fin 128)
    (p : ℕ) (hp : p < cfg0.N) (hpe : t.val = p + 1)
    (ih : ∃ M : ℝ,
      (((outsAt0 m c p hp).2.1 : Vec Ideal S128x1 .f32) (ix2 k (0 : Fin 1)) : EReal) = ((M : ℝ) : EReal)
      ∧ (((outsAt0 m c p hp).2.2.1 : Vec Ideal S128x1 .f32) (ix2 k (0 : Fin 1)) : EReal)
          = ((Lc (xT Xr (Blocks.rowOf t) k) (wT Ur (Blocks.rowOf t) k) M (t.val % 5) : ℝ) : EReal)
      ∧ ∀ j : Fin 128, (((outsAt0 m c p hp).2.2.2 : Vec Ideal S128x128 .f32) (ix2 k j) : EReal)
          = ((Ac (xT Xr (Blocks.rowOf t) k) (wT Ur (Blocks.rowOf t) k) (ohT Lb (Blocks.rowOf t)) M (t.val % 5) j : ℝ) : EReal)) :
    ∃ M : ℝ,
    (((outsAt0 m c t.val t.isLt).2.1 : Vec Ideal S128x1 .f32) (ix2 k (0 : Fin 1)) : EReal) = ((M : ℝ) : EReal)
    ∧ (((outsAt0 m c t.val t.isLt).2.2.1 : Vec Ideal S128x1 .f32) (ix2 k (0 : Fin 1)) : EReal)
        = ((Lc (xT Xr (Blocks.rowOf t) k) (wT Ur (Blocks.rowOf t) k) M (t.val % 5 + 1) : ℝ) : EReal)
    ∧ ∀ j : Fin 128, (((outsAt0 m c t.val t.isLt).2.2.2 : Vec Ideal S128x128 .f32) (ix2 k j) : EReal)
        = ((Ac (xT Xr (Blocks.rowOf t) k) (wT Ur (Blocks.rowOf t) k) (ohT Lb (Blocks.rowOf t)) M (t.val % 5 + 1) j : ℝ) : EReal) := by
  obtain ⟨M, hs, hl, hacc⟩ := ih
  rw [outsAt0_C m c t h0 h1]
  dsimp only
  rw [outsAt0_congr m c (t.val - 1) p (Nat.lt_of_le_of_lt (Nat.sub_le _ _) t.isLt) hp (by omega)]
  rw [Pieces.last_bound (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c p hp).2.1 (outsAt0 m c p hp).2.2.1 (outsAt0 m c p hp).2.2.2 (fun h => h0 ((hcond0_0 t).mp h)) ((hcond0_1 t).mpr h1),
    Pieces.last_den (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c p hp).2.1 (outsAt0 m c p hp).2.2.1 (outsAt0 m c p hp).2.2.2 (fun h => h0 ((hcond0_0 t).mp h)) ((hcond0_1 t).mpr h1),
    Pieces.last_num (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c p hp).2.1 (outsAt0 m c p hp).2.2.1 (outsAt0 m c p hp).2.2.2 (fun h => h0 ((hcond0_0 t).mp h)) ((hcond0_1 t).mpr h1),
    Blocks.coord_tile t]
  exact Step.next_step (iblk m c 0 t) (iblk m c 1 t) (iblk m c 2 t)
    (fun k v => Xr (Blocks.rowOf t) k (Blocks.colOf t v)) (fun k v => Ur (Blocks.rowOf t) k (Blocks.colOf t v))
    (logits_at m c Xr Ur Lb hX hU hLab t) (noise_at m c Xr Ur Lb hX hU hLab t)
    (fun j => (Lb (Blocks.rowOf t) j).val) (fun j => (Lb (Blocks.rowOf t) j).isLt) (labels_at m c Xr Ur Lb hX hU hLab t)
    (t.val % 5) (Nat.mod_lt _ (by norm_num)) k
    (xT Xr (Blocks.rowOf t) k) (wT Ur (Blocks.rowOf t) k) (ohT Lb (Blocks.rowOf t))
    (xT_tile Xr t k) (wT_tile Ur t k) (fun v j => rfl)
    (outsAt0 m c p hp).2.1 (outsAt0 m c p hp).2.2.1 (outsAt0 m c p hp).2.2.2 M hs hl hacc

omit hX hU hLab in
/-- The weights of a row's tiles are positive. -/
private theorem wT_pos (b : Fin 16) (k : Fin 128) (t : ℕ) (v : Fin 6400) : 0 < wT Ur b k t v := by
  unfold wT
  by_cases h : t < 5
  · rw [dif_pos h]
    exact wr_pos _
  · rw [dif_neg h]
    exact one_pos

omit hX hU hLab in
/-- After all five tiles the carried quotient is the gathered softmax probability, at any shift. -/
private theorem quotient_core (b : Fin 16) (k j : Fin 128) (M : ℝ) (S : Fin 16 → Fin 128 → ℝ) :
    Ac (xT Xr b k) (wT Ur b k) (ohT Lb b) M 5 j / Lc (xT Xr b k) (wT Ur b k) M 5 = coreR Xr Ur Lb S b k j := by
  unfold coreR
  refine gather_softmax (xT Xr b k) (wT Ur b k) (ohT Lb b) (Xr b k) (fun v => wr (Ur b k v)) (fun v => wr_pos _)
    (Lb b) M (S b k) ?_ ?_ ?_ j
  · intro t v
    unfold xT
    rw [dif_pos t.isLt]
  · intro t v
    unfold wT
    rw [dif_pos t.isLt]
  · intro t v j'
    unfold ohT
    by_cases h : 6400 * t.val + v.val = (Lb b j').val
    · rw [if_pos h, if_pos (Fin.ext h)]
    · rw [if_neg h, if_neg (fun e => h (congrArg Fin.val e))]

/-- The last tile's output entry: the quotient of the new numerator by the new denominator. -/
private theorem step_out (t : Fin cfg0.N) (h0 : ¬t.val % 5 = 0) (h1 : t.val % 5 = 4) (k j : Fin 128)
    (S : Fin 16 → Fin 128 → ℝ) (p : ℕ) (hp : p < cfg0.N) (hpe : t.val = p + 1)
    (ih : ∃ M : ℝ,
      (((outsAt0 m c p hp).2.1 : Vec Ideal S128x1 .f32) (ix2 k (0 : Fin 1)) : EReal) = ((M : ℝ) : EReal)
      ∧ (((outsAt0 m c p hp).2.2.1 : Vec Ideal S128x1 .f32) (ix2 k (0 : Fin 1)) : EReal)
          = ((Lc (xT Xr (Blocks.rowOf t) k) (wT Ur (Blocks.rowOf t) k) M (t.val % 5) : ℝ) : EReal)
      ∧ ∀ j : Fin 128, (((outsAt0 m c p hp).2.2.2 : Vec Ideal S128x128 .f32) (ix2 k j) : EReal)
          = ((Ac (xT Xr (Blocks.rowOf t) k) (wT Ur (Blocks.rowOf t) k) (ohT Lb (Blocks.rowOf t)) M (t.val % 5) j : ℝ) : EReal)) :
    (((outsAt0 m c t.val t.isLt).1 : Vec Ideal S1x128x128 .f32) (ix3 (0 : Fin 1) k j) : EReal)
      = ((coreR Xr Ur Lb S (Blocks.rowOf t) k j : ℝ) : EReal) := by
  obtain ⟨M, hs, hl, hacc⟩ := ih
  rw [outsAt0_C m c t h0 h1]
  dsimp only
  rw [outsAt0_congr m c (t.val - 1) p (Nat.lt_of_le_of_lt (Nat.sub_le _ _) t.isLt) hp (by omega)]
  rw [Pieces.last_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c p hp).2.1 (outsAt0 m c p hp).2.2.1 (outsAt0 m c p hp).2.2.2 (fun h => h0 ((hcond0_0 t).mp h)) ((hcond0_1 t).mpr h1),
    Blocks.coord_tile t]
  obtain ⟨M', _, hd, hnum⟩ := Step.next_step (iblk m c 0 t) (iblk m c 1 t) (iblk m c 2 t)
    (fun k v => Xr (Blocks.rowOf t) k (Blocks.colOf t v)) (fun k v => Ur (Blocks.rowOf t) k (Blocks.colOf t v))
    (logits_at m c Xr Ur Lb hX hU hLab t) (noise_at m c Xr Ur Lb hX hU hLab t)
    (fun j => (Lb (Blocks.rowOf t) j).val) (fun j => (Lb (Blocks.rowOf t) j).isLt) (labels_at m c Xr Ur Lb hX hU hLab t)
    (t.val % 5) (Nat.mod_lt _ (by norm_num)) k
    (xT Xr (Blocks.rowOf t) k) (wT Ur (Blocks.rowOf t) k) (ohT Lb (Blocks.rowOf t))
    (xT_tile Xr t k) (wT_tile Ur t k) (fun v j => rfl)
    (outsAt0 m c p hp).2.1 (outsAt0 m c p hp).2.2.1 (outsAt0 m c p hp).2.2.2 M hs hl hacc
  have e : t.val % 5 + 1 = 5 := by omega
  rw [e] at hd hnum
  have hD : Lc (xT Xr (Blocks.rowOf t) k) (wT Ur (Blocks.rowOf t) k) M' 5 ≠ 0 :=
    (Lc_pos _ _ (wT_pos Ur (Blocks.rowOf t) k) M' 5 (by norm_num)).ne'
  rw [Step.out_step _ _ k j _ _ hD (hnum j) hd, quotient_core Xr Ur Lb (Blocks.rowOf t) k j M' S]

/-! ## The induction over the grid's points -/

omit hX hU hLab in
/-- A point that is not a row's first works on the batch row of the point before. -/
private theorem rowN_succ (n : ℕ) (hn : n + 1 < cfg0.N) (h0 : ¬(n + 1) % 5 = 0) :
    rowN n (Nat.lt_of_succ_lt hn) = rowN (n + 1) hn := by
  unfold rowN Blocks.rowOf
  apply Fin.ext
  show n / 5 = (n + 1) / 5
  omega

/-- After the n-th point, row k of the three carried buffers: a real shift, and the sums of the tiles seen so far at it. -/
theorem carried (n : ℕ) (hn : n < cfg0.N) (k : Fin 128) : ∃ M : ℝ,
    (((outsAt0 m c n hn).2.1 : Vec Ideal S128x1 .f32) (ix2 k (0 : Fin 1)) : EReal) = ((M : ℝ) : EReal)
    ∧ (((outsAt0 m c n hn).2.2.1 : Vec Ideal S128x1 .f32) (ix2 k (0 : Fin 1)) : EReal)
        = ((Lc (xT Xr (rowN n hn) k) (wT Ur (rowN n hn) k) M (n % 5 + 1) : ℝ) : EReal)
    ∧ ∀ j : Fin 128, (((outsAt0 m c n hn).2.2.2 : Vec Ideal S128x128 .f32) (ix2 k j) : EReal)
        = ((Ac (xT Xr (rowN n hn) k) (wT Ur (rowN n hn) k) (ohT Lb (rowN n hn)) M (n % 5 + 1) j : ℝ) : EReal) := by
  induction n with
  | zero => exact step_first m c Xr Ur Lb hX hU hLab ⟨0, hn⟩ (Nat.zero_mod 5) (by show ¬(0 : ℕ) % 5 = 4; decide) k
  | succ n ih =>
    by_cases h0 : (n + 1) % 5 = 0
    · exact step_first m c Xr Ur Lb hX hU hLab ⟨n + 1, hn⟩ h0 (by show ¬(n + 1) % 5 = 4; omega) k
    · obtain ⟨M, hs, hl, hacc⟩ := ih (Nat.lt_of_succ_lt hn)
      have e : n % 5 + 1 = (n + 1) % 5 := by omega
      rw [rowN_succ n hn h0, e] at hl hacc
      by_cases h1 : (n + 1) % 5 = 4
      · exact step_last m c Xr Ur Lb hX hU hLab ⟨n + 1, hn⟩ h0 h1 k n (Nat.lt_of_succ_lt hn) rfl ⟨M, hs, hl, hacc⟩
      · exact step_mid m c Xr Ur Lb hX hU hLab ⟨n + 1, hn⟩ h0 h1 k n (Nat.lt_of_succ_lt hn) rfl ⟨M, hs, hl, hacc⟩

/-- After a row's last tile the output block holds the gathered softmax probabilities of that batch row. -/
theorem output (n : ℕ) (hn : n < cfg0.N) (h4 : n % 5 = 4) (k j : Fin 128) (S : Fin 16 → Fin 128 → ℝ) :
    (((outsAt0 m c n hn).1 : Vec Ideal S1x128x128 .f32) (ix3 (0 : Fin 1) k j) : EReal)
      = ((coreR Xr Ur Lb S (rowN n hn) k j : ℝ) : EReal) := by
  obtain ⟨p, rfl⟩ : ∃ p, n = p + 1 := ⟨n - 1, by omega⟩
  have h0 : ¬(p + 1) % 5 = 0 := by omega
  obtain ⟨M, hs, hl, hacc⟩ := carried m c Xr Ur Lb hX hU hLab p (Nat.lt_of_succ_lt hn) k
  have e : p % 5 + 1 = (p + 1) % 5 := by omega
  rw [rowN_succ p hn h0, e] at hl hacc
  exact step_out m c Xr Ur Lb hX hU hLab ⟨p + 1, hn⟩ h0 h4 k j S p (Nat.lt_of_succ_lt hn) rfl ⟨M, hs, hl, hacc⟩

end Cert.KernelIdeal.Invariant

end
-- ==== Proof.Output.lean ====
/-
  The kernel's result array after the region.

  The output window is written back only at a batch row's last tile (the points 4, 9, …, 79); at every other point it is
  idle. At point 5 b + 4 the block written back is batch row b of the result array, and the body has just stored into it
  the gathered softmax probabilities of that row. The sixteen blocks cover the array, so after the region it holds
  `coreR` at every entry, at any shift.
-/
import proofs.«404316_j3822520893773_3_alg».proof.Proof.Invariant
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.Reals Cert.Core

/-- The gathered softmax probabilities as an array of extended reals. -/
def coreArr (Xr Ur : Fin 16 → Fin 128 → Fin 32000 → ℝ) (Lb : Fin 16 → Fin 128 → Fin 32000) (S : Fin 16 → Fin 128 → ℝ) :
    FVec Ideal S16x128x128 .f32 :=
  fun i => ((coreR Xr Ur Lb S (i 0) (i 1) (i 2) : ℝ) : EReal)

/-- The output window's block index at point `t`, axis by axis: the batch row, then nothing. -/
private theorem idx0_3 (t : Fin cfg0.N) :
    win0_3.index t (0 : Fin 3) = t.val / 5 ∧ win0_3.index t (1 : Fin 3) = 0 ∧ win0_3.index t (2 : Fin 3) = 0 :=
  (by decide +kernel : ∀ t : Fin grid0.N,
    win0_3.index t (0 : Fin 3) = t.val / 5 ∧ win0_3.index t (1 : Fin 3) = 0 ∧ win0_3.index t (2 : Fin 3) = 0) t

/-- Entry (0, k, j) of the output block at point `t` sits in the result array at (t / 5, k, j). -/
private theorem emb_out (t : Fin cfg0.N) (k j : Fin 128) :
    (((cfg0.win 3).blk t).view.emb (ix3 (0 : Fin 1) k j) : S16x128x128.Idx) = ix3 (Blocks.rowOf t) k j := by
  have hi := idx0_3 t
  funext a
  apply Fin.ext
  match a with
  | ⟨0, _⟩ => show win0_3.index t 0 * 1 + 1 * (0 : Nat) = t.val / 5; rw [hi.1]; omega
  | ⟨1, _⟩ => show win0_3.index t 1 * 128 + 1 * k.val = k.val; rw [hi.2.1]; omega
  | ⟨2, _⟩ => show win0_3.index t 2 * 128 + 1 * j.val = j.val; rw [hi.2.2]; omega

variable (m : (ℓ : Loc nD τ sig) → Buf (Elt Ideal) ℓ) (c : Dev nD)
  (Xr Ur : Fin 16 → Fin 128 → Fin 32000 → ℝ) (Lb : Fin 16 → Fin 128 → Fin 32000)
  (hX : ∀ b k v, ((m ((c : Thread nD τ).loc main_arg0) : Vec Ideal S16x128x32000 .f32) (ix3 b k v) : EReal) = ((Xr b k v : ℝ) : EReal))
  (hU : ∀ b k v, ((m ((c : Thread nD τ).loc main_arg2) : Vec Ideal S16x128x32000 .f32) (ix3 b k v) : EReal) = ((Ur b k v : ℝ) : EReal))
  (hLab : ∀ b j, (m ((c : Thread nD τ).loc main_arg1) : Vec Ideal S16x128 .i32) (ix2 b j) = BitVec.ofNat 32 (Lb b j).val)

include hX hU hLab

/-- What a write-back of the output window writes: the block of `coreArr` at that point. -/
theorem flushed_eq (S : Fin 16 → Fin 128 → ℝ) (t : Fin cfg0.N) (hf : (cfg0.win 3).flush t = true) :
    (dats m 0 c).flushed 3 t = ((cfg0.win 3).blk t).view.read (Elt Ideal) (coreArr Xr Ur Lb S) := by
  have h4 : t.val % 5 = 4 := (flush0_3 t).mp hf
  show (cfg0.win 3).cut (grid0.coords t) ((dats m 0 c).after 3 t) = _
  rw [after0_3]
  refine funext fun (y : S1x128x128.Idx) => ?_
  obtain ⟨p, k, j, rfl⟩ : ∃ p k j, y = ix3 p k j := ⟨y 0, y 1, y 2, eq_ix3 y⟩
  obtain rfl : p = 0 := Subsingleton.elim _ _
  rw [View.read_apply]
  show (((outsAt0 m c t.val t.isLt).1 : Vec Ideal S1x128x128 .f32) (ix3 (0 : Fin 1) k j) : EReal)
    = coreArr Xr Ur Lb S (((cfg0.win 3).blk t).view.emb (ix3 (0 : Fin 1) k j))
  rw [emb_out]
  exact Invariant.output m c Xr Ur Lb hX hU hLab t.val t.isLt h4 k j S

/-- After the region the result array holds the gathered softmax probabilities. -/
theorem final (S : Fin 16 → Fin 128 → ℝ) : (dats m 0 c).arrAt 3 cfg0.N = coreArr Xr Ur Lb S :=
  (dats m 0 c).arrAt_eq_of_cover 3 (coreArr Xr Ur Lb S) (fun t hf => flushed_eq m c Xr Ur Lb hX hU hLab S t hf)
    fun (i : S16x128x128.Idx) => by
      have hN : cfg0.N = 80 := N_0
      have h0 : (i 0 : Nat) < 16 := (i 0).isLt
      have h1 : (i 1 : Nat) < 128 := (i 1).isLt
      have h2 : (i 2 : Nat) < 128 := (i 2).isLt
      have hT : 5 * (i 0 : Nat) + 4 < cfg0.N := by omega
      have hi := idx0_3 ⟨5 * (i 0 : Nat) + 4, hT⟩
      have hd : (5 * (i 0 : Nat) + 4) / 5 = (i 0 : Nat) := by omega
      refine ⟨⟨5 * (i 0 : Nat) + 4, hT⟩, (flush0_3 _).mpr (by show (5 * (i 0 : Nat) + 4) % 5 = 4; omega), ?_⟩
      show i ∈ ((View.whole main_v1).slice (win0_3.rect ⟨5 * (i 0 : Nat) + 4, hT⟩)).set
      rw [View.set_slice_whole, Rect.mem_set_unit]
      intro a
      match a with
      | ⟨0, _⟩ =>
        show win0_3.index ⟨5 * (i 0 : Nat) + 4, hT⟩ 0 * 1 ≤ (i 0 : Nat)
          ∧ (i 0 : Nat) < win0_3.index ⟨5 * (i 0 : Nat) + 4, hT⟩ 0 * 1 + 1
        rw [hi.1, hd]; omega
      | ⟨1, _⟩ =>
        show win0_3.index ⟨5 * (i 0 : Nat) + 4, hT⟩ 1 * 128 ≤ (i 1 : Nat)
          ∧ (i 1 : Nat) < win0_3.index ⟨5 * (i 0 : Nat) + 4, hT⟩ 1 * 128 + 128
        rw [hi.2.1]; omega
      | ⟨2, _⟩ =>
        show win0_3.index ⟨5 * (i 0 : Nat) + 4, hT⟩ 2 * 128 ≤ (i 2 : Nat)
          ∧ (i 2 : Nat) < win0_3.index ⟨5 * (i 0 : Nat) + 4, hT⟩ 2 * 128 + 128
        rw [hi.2.2]; omega

end Cert.KernelIdeal.Output

end
-- ==== Proof.Tail.lean ====
/-
  The host computation both programs end with, as one function of the labels and of the gathered probabilities.

  From `core[b, k, j]` (the probability, at position k, of the label at position j) and the labels: the mask of the
  positions whose label is not the padding id 1; the overlap `mask[i] · mask[k] · core[b, k, i]`; one pass of row and column
  normalisation, each sum floored at 1; minus the total, per batch row, over the number of unmasked positions; the mean over
  the 16 batch rows. Kernel and reference apply exactly these operations, so the certificate never opens them: it shows
  the two `core`s equal and applies this one function to both.
-/
import proofs.«404316_j3822520893773_3_alg».proof.Proof.Gen.KernelIdeal

noncomputable section

open Idealize.ShloMosaic Idealize.ShloMosaic.TcCoe

namespace Cert.KernelIdeal.Tail

open Cert.KernelIdeal Cert.KernelIdeal.Gen

variable {F : FTy → Type} [FloatOps F]

/-- The common host tail: the final scalar from the labels and the gathered probabilities. -/
def tail (lab : IVec S16x128 32) (core : FVec F S16x128x128 .f32) : FVec F S_ .f32 :=
  let pad : IVec S16x128 32 := broadcastInDim S16x128 ![] bcast_S_S16x128 (constantI S_ 32 1#32)
  let mask : FVec F S16x128 .f32 := uitofp .f32 (cmpi .ne lab pad)
  let attend : FVec F S16x128x128 .f32 :=
    mulf (broadcastInDim S16x128x128 ![0, 1, 2] bcast_S16x128x1_S16x128x128_0_1_2 (broadcastInDim S16x128x1 ![0, 1] bcast_S16x128_S16x128x1_0_1 mask))
      (broadcastInDim S16x128x128 ![0, 1, 2] bcast_S16x1x128_S16x128x128_0_1_2 (broadcastInDim S16x1x128 ![0, 2] bcast_S16x128_S16x1x128_0_2 mask))
  let overlap : FVec F S16x1x128x128 .f32 :=
    broadcastInDim S16x1x128x128 ![0, 2, 3] bcast_S16x128x128_S16x1x128x128_0_2_3
      (mulf attend (transpose S16x128x128 [0, 2, 1] core transposes_S16x128x128_S16x128x128_0_2_1))
  let rows : FVec F S16x1x128x128 .f32 :=
    Host.divf overlap
      (broadcastInDim S16x1x128x128 ![0, 1, 2, 3] bcast_S16x1x128x1_S16x1x128x128_0_1_2_3
        (maximumf
          (broadcastInDim S16x1x128x1 ![0, 1, 2] bcast_S16x1x128_S16x1x128x1_0_1_2
            (Host.reduceAdd overlap (constant S_ .f32 0x00000000#32) reducesTo_S16x1x128x128_S16x1x128_d3 h_S_))
          (broadcastInDim S16x1x128x1 ![] bcast_S_S16x1x128x1 (constant S_ .f32 0x3F800000#32))))
  let cols : FVec F S16x1x128x128 .f32 :=
    Host.divf rows
      (broadcastInDim S16x1x128x128 ![0, 1, 2, 3] bcast_S16x1x1x128_S16x1x128x128_0_1_2_3
        (maximumf
          (broadcastInDim S16x1x1x128 ![0, 1, 3] bcast_S16x1x128_S16x1x1x128_0_1_3
            (Host.reduceAdd rows (constant S_ .f32 0x00000000#32) reducesTo_S16x1x128x128_S16x1x128_d2 h_S_))
          (broadcastInDim S16x1x1x128 ![] bcast_S_S16x1x1x128 (constant S_ .f32 0x3F800000#32))))
  let num : FVec F S16 .f32 :=
    Host.negf (shapeCast S16 (Host.reduceAdd cols (constant S_ .f32 0x00000000#32) reducesTo_S16x1x128x128_S16x1_d2_3 h_S_) shapeCasts_S16x1_S16)
  let den : FVec F S16 .f32 := Host.reduceAdd mask (constant S_ .f32 0x00000000#32) reducesTo_S16x128_S16_d1 h_S_
  Host.divf (Host.reduceAdd (Host.divf num den) (constant S_ .f32 0x00000000#32) reducesTo_S16_S_d0 h_S_) (constant S_ .f32 0x41800000#32)

end Cert.KernelIdeal.Tail

end
-- ==== Proof.KTail.lean ====
/-
  The kernel program's run, read: its result is the common host tail of the labels and the gathered probabilities.

  After the region the host operations of the program's tail read the labels (an argument, untouched) and the region's
  result array, and write the final scalar; every weakly fair execution terminates with that scalar at `tail labels core`
  and the three arguments unchanged.
-/
import proofs.«404316_j3822520893773_3_alg».proof.Proof.Output
import proofs.«404316_j3822520893773_3_alg».proof.Proof.Tail
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KTail

open Cert.KernelIdeal Cert.KernelIdeal.Gen Cert.Reals Cert.Core Cert.KernelIdeal.Output

variable (m : (ℓ : Loc nD τ sig) → Buf (Elt Ideal) ℓ) (ρ : Dev nD → PrngReg)
  (Xr Ur : Dev nD → Fin 16 → Fin 128 → Fin 32000 → ℝ) (Lb : Dev nD → Fin 16 → Fin 128 → Fin 32000)
  (hX : ∀ (c : Dev nD) b k v, ((m ((c : Thread nD τ).loc main_arg0) : Vec Ideal S16x128x32000 .f32) (ix3 b k v) : EReal) = ((Xr c b k v : ℝ) : EReal))
  (hU : ∀ (c : Dev nD) b k v, ((m ((c : Thread nD τ).loc main_arg2) : Vec Ideal S16x128x32000 .f32) (ix3 b k v) : EReal) = ((Ur c b k v : ℝ) : EReal))
  (hLab : ∀ (c : Dev nD) b j, (m ((c : Thread nD τ).loc main_arg1) : Vec Ideal S16x128 .i32) (ix2 b j) = BitVec.ofNat 32 (Lb c b j).val)

include hX hU hLab

/-- The final scalar the tail's host operations leave: the common tail of the labels and the gathered probabilities. -/
theorem tail_value (S : Dev nD → Fin 16 → Fin 128 → ℝ) (c : Dev nD) :
    Pipeline.afterTail₀ cfgs (dats m) 0 (V0 m) [hostOps1] c main_v31
      = Tail.tail (m ((c : Thread nD τ).loc main_arg1)) (coreArr (Xr c) (Ur c) (Lb c) (S c)) := by
  unfold Pipeline.afterTail₀
  show StableHlo.after hostOps1 (Pipeline.withArrays spec0 c (V0 m c) fun w => (dats m 0 c).arrAt w cfg0.N)
    (Proc.devRef .tc main_v31) = _
  -- the two buffers the tail reads: the labels, untouched, and the region's result array
  have hA1 : Pipeline.withArrays spec0 c (V0 m c) (fun w => (dats m 0 c).arrAt w cfg0.N) (Proc.devRef .tc main_arg1)
      = m ((c : Thread nD τ).loc main_arg1) :=
    (Pipeline.withArrays_of_ne _ c (V0 m c) _ main_arg1 (by decide : ∀ w, Pipeline.arrRef spec0 w ≠ main_arg1)).trans
      (V_main_arg1 m c)
  have hV1 : Pipeline.withArrays spec0 c (V0 m c) (fun w => (dats m 0 c).arrAt w cfg0.N) (Proc.devRef .tc main_v1)
      = coreArr (Xr c) (Ur c) (Lb c) (S c) :=
    (Pipeline.withArrays_arr spec0 launch0.win.arr_inj c _ _ 3).trans
      (Output.final m c (Xr c) (Ur c) (Lb c) (hX c) (hU c) (hLab c) (S c))
  generalize Pipeline.withArrays spec0 c (V0 m c) (fun w => (dats m 0 c).arrAt w cfg0.N) = W at hA1 hV1 ⊢
  after_results_simp
  rw [hA1, hV1]
  generalize m ((c : Thread nD τ).loc main_arg1) = lab
  generalize coreArr (Xr c) (Ur c) (Lb c) (S c) = core
  unfold Tail.tail
  rfl

/-- The run of the idealized kernel program, read. -/
theorem run (S : Dev nD → Fin 16 → Fin 128 → ℝ) :
    θ_run defs (onTc (τ := τ) (main (F := Ideal))) ⟨m, fun _ => 0, ρ⟩ (fun r => ∀ c : Dev nD,
      r.2.mem ((c.tc : Thread nD τ).loc main_v31) = Tail.tail (m ((c : Thread nD τ).loc main_arg1)) (coreArr (Xr c) (Ur c) (Lb c) (S c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v31 (Pipeline.mem_restRefs_of main_v31 (by decide) (by decide))).trans
        (tail_value m Xr Ur Lb hX hU hLab S c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.KTail

end
-- ==== Proof.RefSoftmax.lean ====
/-
  The reference's softmax stage, read at an index over the reals.

  The reference forms, entry by entry, the Gumbel logit `s = (x + g) / 1` with `g = -(log (-(log (clip u))))`; per row its
  maximum `S` (a reduce from -∞, then a maximum with -∞ again); `e = exp (s - S)`; the row sum of `e`; and `e` over that sum.
  With real logits and noise every one of these is a real: `g = -log w` for the positive weight `w = -log (clip u)`, the row
  maximum of 32000 reals is a real, and the quotient's divisor, a sum of exponentials, is positive.
-/
import proofs.«404316_j3822520893773_3_alg».proof.Proof.Gen.ReferenceIdeal.Read
import proofs.«404316_j3822520893773_3_alg».proof.Proof.Reals
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.ReferenceIdeal.RefSoftmax

open Cert.ReferenceIdeal Cert.ReferenceIdeal.Gen Cert.ReferenceIdeal.Read Cert.Reals

/-- The word `0x3F800000` denotes the real 1. -/
private theorem ofBits_one : Ideal.ofBits .f32 0x3F800000#32 = ((1 : ℝ) : EReal) := by
  simp [Ideal.ofBits, Ideal.ieee, -EReal.coe_mul]
  norm_num

/-- The Gumbel term at (b, k, v): minus the log of the weight of the noise value there. -/
private theorem gumbel_at (x2 : FVec Ideal S16x128x32000 .f32) (Ur : Fin 16 → Fin 128 → Fin 32000 → ℝ)
    (hU : ∀ b k v, (x2 (ix3 b k v) : EReal) = ((Ur b k v : ℝ) : EReal)) (b : Fin 16) (k : Fin 128) (v : Fin 32000) :
    (val_main_v4 (F := Ideal) x2 (ix3 b k v) : EReal) = ((-Real.log (wr (Ur b k v)) : ℝ) : EReal) := by
  rw [val_main_v4_apply, val_main_v3_apply, val_main_v2_apply, val_main_v1_apply, val_main_v0_apply,
    val_main_call0_v4_apply, val_main_call0_v3_apply, val_main_cst_0_apply, val_main_call0_v2_apply,
    val_main_call0_v1_apply, val_main_call0_v0_apply, val_main_cst_apply]
  simp only [Ideal.hostUnary_log_def, Ideal.hostNegf_def, Ideal.negf_def, Ideal.minimumf_def, Ideal.maximumf_def,
    Ideal.ofBits_def]
  rw [hU]
  exact gumbel_coe _

/-- The Gumbel logit at (b, k, v): the logit plus the Gumbel term, over the constant 1. -/
private theorem logit_at (x0 x2 : FVec Ideal S16x128x32000 .f32) (Xr Ur : Fin 16 → Fin 128 → Fin 32000 → ℝ)
    (hX : ∀ b k v, (x0 (ix3 b k v) : EReal) = ((Xr b k v : ℝ) : EReal))
    (hU : ∀ b k v, (x2 (ix3 b k v) : EReal) = ((Ur b k v : ℝ) : EReal)) (b : Fin 16) (k : Fin 128) (v : Fin 32000) :
    (val_main_v7 (F := Ideal) x0 x2 (ix3 b k v) : EReal) = ((Xr b k v + -Real.log (wr (Ur b k v)) : ℝ) : EReal) := by
  rw [val_main_v7_apply, val_main_v5_apply, val_main_v6_apply, val_main_cst_1_apply, gumbel_at x2 Ur hU]
  simp only [Ideal.hostDivf_def, Ideal.addf_def, Ideal.ofBits_def]
  rw [hX, ofBits_one, ← EReal.coe_add, div_coe_coe _ 1 one_ne_zero, div_one]

/-- Every Gumbel logit is a real, at any index: an index is the triple of its coordinates. -/
private theorem logit_real (x0 x2 : FVec Ideal S16x128x32000 .f32) (Xr Ur : Fin 16 → Fin 128 → Fin 32000 → ℝ)
    (hX : ∀ b k v, (x0 (ix3 b k v) : EReal) = ((Xr b k v : ℝ) : EReal))
    (hU : ∀ b k v, (x2 (ix3 b k v) : EReal) = ((Ur b k v : ℝ) : EReal)) (i : S16x128x32000.Idx) :
    ∃ r : ℝ, (val_main_v7 (F := Ideal) x0 x2 i : EReal) = ((r : ℝ) : EReal) := by
  obtain ⟨b, k, v, rfl⟩ : ∃ b k v, i = ix3 b k v := ⟨_, _, _, eq_ix3 i⟩
  exact ⟨_, logit_at x0 x2 Xr Ur hX hU b k v⟩

/-- The row maximum at (b, k) is a real: the reduce is a maximum folded from -∞ over the 32000 coordinates of the
    reduced axis, each member a real, and the further maximum with -∞ changes nothing. -/
private theorem rowmax_real (x0 x2 : FVec Ideal S16x128x32000 .f32) (Xr Ur : Fin 16 → Fin 128 → Fin 32000 → ℝ)
    (hX : ∀ b k v, (x0 (ix3 b k v) : EReal) = ((Xr b k v : ℝ) : EReal))
    (hU : ∀ b k v, (x2 (ix3 b k v) : EReal) = ((Ur b k v : ℝ) : EReal)) (b : Fin 16) (k : Fin 128) :
    ∃ r : ℝ, (val_main_v10 (F := Ideal) x0 x2 (ix2 b k) : EReal) = ((r : ℝ) : EReal) := by
  have hred : S16x128x32000.Reduces [2] S16x128 := by decide
  choose f hf using logit_real x0 x2 Xr Ur hX hU
  obtain ⟨r, hr⟩ := fold_max_coe (n := S16x128x32000.size 2) (by decide) (fun k' => f (hred.lift (ix2 b k) k'))
  have hfun : (val_main_v7 (F := Ideal) x0 x2 ∘ hred.lift (ix2 b k))
      = fun k' => ((f (hred.lift (ix2 b k) k') : ℝ) : EReal) := funext fun k' => hf _
  have hr' : (Finset.univ : Finset (Fin (S16x128x32000.size 2))).fold (FloatOps.maximumf (F := Ideal) (φ := .f32)) (⊥ : EReal)
      (fun k' => ((f (hred.lift (ix2 b k) k') : ℝ) : EReal)) = ((r : ℝ) : EReal) := hr
  refine ⟨r, ?_⟩
  rw [val_main_v10_apply, val_main_v9_apply, val_main_cst_3_apply]
  unfold val_main_v8
  rw [Host.reduce_eq_fold_single FloatOps.maximumf _ _ reducesTo_S16x128x32000_S16x128_d2 hred h_S_, val_main_cst_2_apply,
    hfun]
  simp only [Ideal.maximumf_def, Ideal.ofBits_def]
  rw [ofBits_neg_inf, hr', max_bot_coe]

/-- The exponential at (b, k, v), given the row maxima as reals `S`: the shift is broadcast back along the row, the
    difference of two reals is a real, and its exponential is the real exponential. -/
private theorem exp_at (x0 x2 : FVec Ideal S16x128x32000 .f32) (Xr Ur : Fin 16 → Fin 128 → Fin 32000 → ℝ)
    (hX : ∀ b k v, (x0 (ix3 b k v) : EReal) = ((Xr b k v : ℝ) : EReal))
    (hU : ∀ b k v, (x2 (ix3 b k v) : EReal) = ((Ur b k v : ℝ) : EReal)) (S : Fin 16 → Fin 128 → ℝ)
    (hS : ∀ b k, (val_main_v10 (F := Ideal) x0 x2 (ix2 b k) : EReal) = ((S b k : ℝ) : EReal))
    (b : Fin 16) (k : Fin 128) (v : Fin 32000) :
    (val_main_v14 (F := Ideal) x0 x2 (ix3 b k v) : EReal)
      = ((Real.exp (Xr b k v + -Real.log (wr (Ur b k v)) - S b k) : ℝ) : EReal) := by
  have h12 : idx_main_v11 (idx_main_v12 (ix3 b k v)) = ix2 b k :=
    funext fun a => by match a with | ⟨0, _⟩ => rfl | ⟨1, _⟩ => rfl
  rw [val_main_v14_apply, val_main_v13_apply, val_main_v12_apply, val_main_v11_apply, h12, hS,
    logit_at x0 x2 Xr Ur hX hU]
  simp only [Ideal.hostUnary_exp_def, Ideal.subf_def]
  rw [← EReal.coe_sub, Ideal.exp_coe]

/-- The row sum at (b, k): zero plus the sum over the row of the exponentials, a sum of reals. -/
private theorem rowsum_at (x0 x2 : FVec Ideal S16x128x32000 .f32) (Xr Ur : Fin 16 → Fin 128 → Fin 32000 → ℝ)
    (hX : ∀ b k v, (x0 (ix3 b k v) : EReal) = ((Xr b k v : ℝ) : EReal))
    (hU : ∀ b k v, (x2 (ix3 b k v) : EReal) = ((Ur b k v : ℝ) : EReal)) (S : Fin 16 → Fin 128 → ℝ)
    (hS : ∀ b k, (val_main_v10 (F := Ideal) x0 x2 (ix2 b k) : EReal) = ((S b k : ℝ) : EReal))
    (b : Fin 16) (k : Fin 128) :
    (val_main_v15 (F := Ideal) x0 x2 (ix2 b k) : EReal)
      = ((∑ v' : Fin 32000, Real.exp (Xr b k v' + -Real.log (wr (Ur b k v')) - S b k) : ℝ) : EReal) := by
  have hidx : ∀ v' : Fin 32000, idx_main_v15 (ix2 b k) v' = ix3 b k v' := fun v' =>
    funext fun a => by match a with | ⟨0, _⟩ => rfl | ⟨1, _⟩ => rfl | ⟨2, _⟩ => rfl
  rw [val_main_v15_apply, val_main_cst_4_apply]
  simp only [hidx, exp_at x0 x2 Xr Ur hX hU S hS, Ideal.ofBits_def, Ideal.ofBits_zero_f32, zero_add]
  exact sum_coe _ _

/-- Entry (b, k, v) of the reference's softmax, for real logits `Xr` and noise `Ur`: there is a real shift per row
    (the row maximum of the Gumbel logits) at which it is the quotient of exponentials. -/
theorem probs_apply (x0 x2 : FVec Ideal S16x128x32000 .f32) (Xr Ur : Fin 16 → Fin 128 → Fin 32000 → ℝ)
    (hX : ∀ b k v, (x0 (ix3 b k v) : EReal) = ((Xr b k v : ℝ) : EReal))
    (hU : ∀ b k v, (x2 (ix3 b k v) : EReal) = ((Ur b k v : ℝ) : EReal)) :
    ∃ S : Fin 16 → Fin 128 → ℝ, ∀ (b : Fin 16) (k : Fin 128) (v : Fin 32000),
      (val_main_v18 (F := Ideal) x0 x2 (ix3 b k v) : EReal)
        = ((Real.exp (Xr b k v + -Real.log (wr (Ur b k v)) - S b k)
            / ∑ v' : Fin 32000, Real.exp (Xr b k v' + -Real.log (wr (Ur b k v')) - S b k) : ℝ) : EReal) := by
  -- the shift is the row maximum, a real; the divisor is a sum of exponentials, hence positive
  choose S hS using rowmax_real x0 x2 Xr Ur hX hU
  refine ⟨S, fun b k v => ?_⟩
  have h17 : idx_main_v16 (idx_main_v17 (ix3 b k v)) = ix2 b k :=
    funext fun a => by match a with | ⟨0, _⟩ => rfl | ⟨1, _⟩ => rfl
  have hpos : (∑ v' : Fin 32000, Real.exp (Xr b k v' + -Real.log (wr (Ur b k v')) - S b k)) ≠ 0 :=
    ne_of_gt (Finset.sum_pos (fun _ _ => Real.exp_pos _) ⟨⟨0, by norm_num⟩, Finset.mem_univ _⟩)
  rw [val_main_v18_apply, val_main_v17_apply, val_main_v16_apply, h17, rowsum_at x0 x2 Xr Ur hX hU S hS,
    exp_at x0 x2 Xr Ur hX hU S hS]
  simp only [Ideal.hostDivf_def]
  exact div_coe_coe _ _ hpos

end Cert.ReferenceIdeal.RefSoftmax

end
-- ==== Proof.RefGather.lean ====
/-
  The reference's gather, read at an index.

  `core[b, k, j] = probs[b, k, labels[b, j]]`: the start index of result entry (b, k, j) is the label of (b, j), first
  wrapped (a negative label has the vocabulary size added) and then clamped into the vocabulary. A label that is already a
  vocabulary index is left alone by both, so the entry read is exactly `probs[b, k, label]`.
-/
import proofs.«404316_j3822520893773_3_alg».proof.Proof.Gen.ReferenceIdeal.Read
import Idealize.ShloMosaic.Lib.ValueIdx
import Idealize.ShloMosaic.Lib.Pipeline.Value
import Idealize.ShloMosaic.Lib.StableHlo.Predicate

noncomputable section

open Idealize.ShloMosaic Idealize.ShloMosaic.TcCoe Idealize.ShloMosaic.ValueIdx

namespace Cert.ReferenceIdeal.RefGather

open Cert.ReferenceIdeal Cert.ReferenceIdeal.Gen Cert.ReferenceIdeal.Read

/-- The gather's dimension numbers: batching axis 0 on both sides, offset axis 1, the collapsed start-indexed axis 2. -/
local notation "dG" => gather_S16x128x32000_S16x128x1_S16x128x128_1_2_0_0_2_2_11281

/-- The word of a vocabulary index is not negative as a signed number, so the wrap (add the vocabulary size to a negative
    label) takes its other branch and leaves the word alone. -/
theorem wrapped_word (x1 : IVec S16x128 32) (Lb : Fin 16 → Fin 128 → Fin 32000)
    (hLab : ∀ b j, x1 (ix2 b j) = BitVec.ofNat 32 (Lb b j).val) (b : Fin 16) (j : Fin 128) :
    val_main_v31 (F := Ideal) x1 (ix2 b j) = BitVec.ofNat 32 (Lb b j).val := by
  rw [val_main_v31_apply, val_main_v28_apply, val_main_v27_apply, val_main_c_5_apply, hLab]
  have hn : (Lb b j).val < 32000 := (Lb b j).isLt
  have hlt : (BitVec.ofNat 32 (Lb b j).val).toNat < 2 ^ 31 := by rw [BitVec.toNat_ofNat]; omega
  -- signed "less than zero" of a word below 2³¹ would say its value is below 0
  have hc : IntOp.cmpi .slt (BitVec.ofNat 32 (Lb b j).val) 0#32 ≠ 1 := by
    intro h
    exact Nat.not_lt_zero _ ((StableHlo.Predicate.slt_iff_toNat hlt (by decide)).1 h)
  exact if_neg hc

/-- Entry (b, k, j) of the gathered array, when the labels are the words of vocabulary indices `Lb`. -/
theorem gather_apply (x0 x2 : FVec Ideal S16x128x32000 .f32) (x1 : IVec S16x128 32) (Lb : Fin 16 → Fin 128 → Fin 32000)
    (hLab : ∀ b j, x1 (ix2 b j) = BitVec.ofNat 32 (Lb b j).val) (b : Fin 16) (k j : Fin 128) :
    val_main_v33 (F := Ideal) x0 x1 x2 (ix3 b k j) = val_main_v18 (F := Ideal) x0 x2 (ix3 b k (Lb b j)) := by
  -- the start-index array at (b, j, 0) is the wrapped label of (b, j), which is the label's own word
  have hix : idx_main_v32 (ix3 b j (0 : Fin 1)) = ix2 b j := by
    funext a; match a with | ⟨0, _⟩ => rfl | ⟨1, _⟩ => rfl
  have hw : val_main_v32 (F := Ideal) x1 (ix3 b j (0 : Fin 1)) = BitVec.ofNat 32 (Lb b j).val := by
    rw [val_main_v32_apply, hix]; exact wrapped_word x1 Lb hLab b j
  -- the gather reads its operand at the operand index; compare the two indices axis by axis
  unfold val_main_v33 Host.gather
  congr 1
  funext a
  apply Fin.ext
  generalize val_main_v32 (F := Ideal) x1 = idx at hw ⊢
  match a with
  | ⟨0, _⟩ =>
    -- the batching axis: no start, no offset; the batching coordinate is the result's coordinate on axis 0
    show GatherDims.start dG (ix3 b k j) idx (0 : Fin 3) + GatherDims.batchCoord dG (ix3 b k j) (0 : Fin 3)
      + GatherDims.offCoord dG (ix3 b k j) (0 : Fin 3) = b.val
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    -- the offset axis: not start-indexed, not batching; the offset coordinate is the result's coordinate on axis 1
    show GatherDims.start dG (ix3 b k j) idx (1 : Fin 3) + GatherDims.batchCoord dG (ix3 b k j) (1 : Fin 3)
      + GatherDims.offCoord dG (ix3 b k j) (1 : Fin 3) = k.val
    rw [GatherDims.batchCoord_eq_zero _ _ _ (by decide), Nat.add_zero]
    unfold GatherDims.start GatherDims.offCoord
    rw [dif_neg (by decide), dif_pos (by decide), Nat.zero_add]
    rfl
  | ⟨2, _⟩ =>
    -- the collapsed axis: the start index read signed and clamped into [0, 32000 − 1]; no batching, no offset
    show GatherDims.start dG (ix3 b k j) idx (2 : Fin 3) + GatherDims.batchCoord dG (ix3 b k j) (2 : Fin 3)
      + GatherDims.offCoord dG (ix3 b k j) (2 : Fin 3) = (Lb b j).val
    rw [GatherDims.batchCoord_eq_zero _ _ _ (by decide), GatherDims.offCoord_eq_zero _ _ _ (by decide)]
    simp only [Nat.add_zero]
    unfold GatherDims.start
    rw [dif_pos (by decide)]
    have hn : (Lb b j).val < 32000 := (Lb b j).isLt
    -- the start index of result entry (b, k, j) sits at (b, j, 0) of the start-index array
    have hsi : GatherDims.siIdx dG (ix3 b k j)
        ⟨List.idxOf (2 : Fin 3) (GatherDims.startIndexMap dG), List.idxOf_lt_length_iff.2 (by decide)⟩
        = ix3 b j (0 : Fin 1) := by
      funext c; refine Fin.ext ?_
      match c with
      | ⟨0, _⟩ => rfl
      | ⟨1, _⟩ => rfl
      | ⟨2, _⟩ => rfl
    -- a word below 2³¹ reads the same signed and unsigned, and a vocabulary index is already inside the clamp
    rw [hsi, hw, StableHlo.Predicate.toInt_ofNat_small _ (by omega), Int.toNat_natCast]
    show min (Lb b j).val (32000 - 1) = _
    exact Nat.min_eq_left (by omega)

end Cert.ReferenceIdeal.RefGather

end
-- ==== Proof.RefTail.lean ====
/-
  The reference's result is the common host tail of the labels and of its own gathered array.

  After the gather the reference applies, operation for operation, the host tail the kernel program applies to its
  result array (the mask's operations stand a little earlier in the reference's text, which changes no value).
-/
import proofs.«404316_j3822520893773_3_alg».proof.Proof.Gen.ReferenceIdeal.Read
import proofs.«404316_j3822520893773_3_alg».proof.Proof.Tail

noncomputable section

open Idealize.ShloMosaic Idealize.ShloMosaic.TcCoe

namespace Cert.ReferenceIdeal.RefTail

open Cert.ReferenceIdeal Cert.ReferenceIdeal.Gen Cert.ReferenceIdeal.Read

variable {F : FTy → Type} [FloatOps F]

/-- The reference's final stage is the common tail applied to the labels and the gathered array. -/
theorem tail_eq (x0 x2 : FVec F S16x128x32000 .f32) (x1 : IVec S16x128 32) :
    val_main_v55 (F := F) x0 x1 x2 = Cert.KernelIdeal.Tail.tail (F := F) x1 (val_main_v33 (F := F) x0 x1 x2) := by
  -- every stage after the gather, and the mask's stages before it, opened; the gathered array kept as one variable
  unfold val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v26 val_main_v25 val_main_v24 val_main_v23 val_main_v22 val_main_v21 val_main_v20 val_main_v19
  generalize val_main_v33 (F := F) x0 x1 x2 = core
  rfl

end Cert.ReferenceIdeal.RefTail

end
-- ==== Proof.Pre.lean ====
/-
  The precondition, decoded.

  The printed precondition is the conjunction of four whole-array tests: every logit's absolute value is below +∞, every
  noise value's is, every label is at least 0, every label is below 32000. It holds (is the all-ones word) exactly when
  each test holds at every entry; an extended real whose absolute value is below +∞ is a real, and a 32-bit word that is
  non-negative as a signed number and below 32000 is the word of a natural number below 32000.
-/
import proofs.«404316_j3822520893773_3_alg».proof.Pre_finite_inputs
import proofs.«404316_j3822520893773_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate

noncomputable section

open Idealize.ShloMosaic Idealize.ShloMosaic.TcCoe

namespace Cert.PreDecode

open Cert.Pre_finite_inputs Cert.Pre_finite_inputs.Gen

/-- The result of the precondition is a rank-0 array: it has one index. -/
private instance : Subsingleton S_.Idx := ⟨fun a b => funext fun d => d.elim0⟩

/-- An extended real whose absolute value `max x (-x)` is below `⊤` is neither `⊤` nor `⊥`: it is a real. -/
private theorem real_of_abs_lt_top (x : EReal) (h : max x (-x) < ⊤) : ∃ r : ℝ, x = (r : EReal) := by
  induction x using EReal.rec with
  | bot => simp at h
  | top => simp at h
  | coe r => exact ⟨r, rfl⟩

/-- The pattern `0x7F800000` (sign clear, exponent all ones, significand zero) denotes `⊤`. -/
private theorem top_bits : Ideal.ofBits .f32 0x7F800000#32 = (⊤ : EReal) := by
  simp [Ideal.ofBits, Ideal.ieee]

/-- The ordered comparison `|a| < ⊤` coming out as the word 1 says that `a` is a real. -/
private theorem real_of_cmp (a : EReal) (e : Ideal.cmp .olt (max a (-a)) ⊤ = 1#1) : ∃ r : ℝ, a = (r : EReal) := by
  change BitVec.ofBool (decide (max a (-a) < ⊤)) = 1#1 at e
  rw [StableHlo.Predicate.ofBool_eq_one_iff] at e
  exact real_of_abs_lt_top a (of_decide_eq_true e)

/-- A 32-bit word that is, read signed, at least 0 and below 32000 has its top bit clear, so it reads the same
    unsigned: it is the word of the natural number `w.toNat`, which is below 32000. -/
private theorem word_of_range (w : BitVec 32) (h0 : (0#32 : BitVec 32).toInt ≤ w.toInt)
    (h1 : w.toInt < (32000#32 : BitVec 32).toInt) : ∃ n : ℕ, n < 32000 ∧ w = BitVec.ofNat 32 n := by
  have c0 : (0#32 : BitVec 32).toInt = 0 := by decide
  have c1 : (32000#32 : BitVec 32).toInt = 32000 := by decide
  rw [c0] at h0
  rw [c1] at h1
  have hn : 2 * w.toNat < 2 ^ 32 := BitVec.toInt_pos_iff.mp h0
  have ht : w.toInt = (w.toNat : Int) := BitVec.toInt_eq_toNat_of_lt hn
  refine ⟨w.toNat, by omega, ?_⟩
  apply BitVec.eq_of_toNat_eq
  rw [BitVec.toNat_ofNat, Nat.mod_eq_of_lt (by omega)]

/-- What the precondition says of the three argument arrays, at the ideal instance. -/
theorem decode (x0 x2 : FVec Ideal S16x128x32000 .f32) (x1 : IVec S16x128 32)
    (h : Cert.Pre_finite_inputs.fn (F := Ideal) x0 x1 x2 = fun _ => 1#1) :
    (∀ i, ∃ r : ℝ, (x0 i : EReal) = ((r : ℝ) : EReal))
    ∧ (∀ i, ∃ r : ℝ, (x2 i : EReal) = ((r : ℝ) : EReal))
    ∧ (∀ i, ∃ n : ℕ, n < 32000 ∧ x1 i = BitVec.ofNat 32 n) := by
  -- the one entry of the rank-0 result, with the chain of operations in view
  have h0 := congrFun h ValueIdx.ix0
  dsimp only [Cert.Pre_finite_inputs.fn, Cert.Pre_finite_inputs.fn_part1] at h0
  -- the conjunction of four 1-bit words is 1 exactly when each of them is
  change IntOp.andi (IntOp.andi (IntOp.andi _ _) _) _ = 1#1 at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_⟩
  · -- the logits: the reduction by `and` is 1, so the test `|x0 i| < ⊤` holds at every entry
    have e := Host.reduce_andi_all _ _ _ _ _ h1 i
    change Ideal.cmp .olt (max (x0 i) (-(x0 i))) (Ideal.ofBits .f32 0x7F800000#32) = 1#1 at e
    rw [top_bits] at e
    exact real_of_cmp _ e
  · -- the noise: the same test at every entry of `x2`
    have e := Host.reduce_andi_all _ _ _ _ _ h2 i
    change Ideal.cmp .olt (max (x2 i) (-(x2 i))) (Ideal.ofBits .f32 0x7F800000#32) = 1#1 at e
    rw [top_bits] at e
    exact real_of_cmp _ e
  · -- the labels: both signed tests hold at every entry
    have e3 := Host.reduce_andi_all _ _ _ _ _ h3 i
    have e4 := Host.reduce_andi_all _ _ _ _ _ h4 i
    change IntOp.cmpi .sge (x1 i) 0#32 = 1#1 at e3
    change IntOp.cmpi .slt (x1 i) 32000#32 = 1#1 at e4
    rw [IntOp.cmpi_sge] at e3
    rw [IntOp.cmpi_slt] at e4
    exact word_of_range _ e3 e4

end Cert.PreDecode

end
-- ==== Proof.lean ====
/-
  The certificate: a Gumbel-softmax gather computed online over vocabulary tiles equals the plain one.

  Both programs compute, per batch row b, `core[b, k, j] = softmax (logits + g)[b, k, labels[b, j]]` with
  `g = -log (-log (clip noise))`, and then apply the same host operations to `core` and the labels. The reference takes the
  softmax whole. The kernel walks the vocabulary in five tiles of 6400 and carries, per row, a bound `M` on the logits seen
  so far (the tile maxima plus a constant, so not the true maximum of `logits + g`), the denominator
  `Σ exp (logit - M) / w` with `w = -log (clip noise)`, and the gathered numerators `Σ [column = label] exp (logit - M) / w`,
  rescaling both by `exp (M - M')` whenever the bound moves to `M'`; at the last tile it divides. Since
  `exp (-log w) = 1 / w` for the positive weight `w`, and a common factor `exp (S - M)` cancels in the quotient, the two
  agree at every entry — provided the logits and the noise are finite reals and every label is a vocabulary index (for a
  label outside the vocabulary the kernel's column test never fires while the reference's gather still reads an entry).

  The frames are the generated ones (the reference's is its generated run with the result dropped). `preserves` has the
  two ledger entries: the named constant 403/25 added to the tile maxima, which only moves the bound and cancels, and a
  widening of a narrowing that is the identity on extended reals.
-/
import proofs.«404316_j3822520893773_3_alg».proof.Defs
import proofs.«404316_j3822520893773_3_alg».proof.Proof.Gen.Kernel
import proofs.«404316_j3822520893773_3_alg».proof.Proof.Gen.Kernel.Frame
import proofs.«404316_j3822520893773_3_alg».proof.Proof.Gen.KernelIdeal
import proofs.«404316_j3822520893773_3_alg».proof.Proof.Gen.KernelIdeal.Frame
import proofs.«404316_j3822520893773_3_alg».proof.Proof.Gen.ReferenceIdeal
import proofs.«404316_j3822520893773_3_alg».proof.Proof.Gen.ReferenceIdeal.Run
import proofs.«404316_j3822520893773_3_alg».proof.Proof.Gen.ReferenceIdeal.Read
import proofs.«404316_j3822520893773_3_alg».proof.Proof.Gen.Pre_finite_inputs
import proofs.«404316_j3822520893773_3_alg».proof.Proof.KTail
import proofs.«404316_j3822520893773_3_alg».proof.Proof.RefSoftmax
import proofs.«404316_j3822520893773_3_alg».proof.Proof.RefGather
import proofs.«404316_j3822520893773_3_alg».proof.Proof.RefTail
import proofs.«404316_j3822520893773_3_alg».proof.Proof.Pre
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ledger's two entries: the constant added to the tile maxima is named 403/25, and a bf16 narrowing followed by
    its widening is the identity at the ideal instance. -/
theorem preserves : Cert.preserves_Kernel_KernelIdeal :=
  ⟨IdealRules.named_const.statement Cert.KernelIdeal.κ "c_403_25" .f32 0x4180F5C3#32 ((403 / 25 : ℝ) : EReal) rfl,
    IdealRules.truncf_extf.statement Cert.KernelIdeal.S128x6400 .f32 .bf16⟩

/-- Both programs end at the common host tail of the labels and of the gathered softmax probabilities, the kernel's read
    off its result array at the shift the reference's row maxima give. -/
theorem algebraic : Cert.algebraic_KernelIdeal_ReferenceIdeal := by
  intro m ρ m' ρ' hpre hagree
  -- the precondition, decoded on each device: real logits, real noise, labels that are vocabulary indices
  have hd := fun c => Cert.PreDecode.decode _ _ _ (hpre c)
  choose Xf hXf using fun c => (hd c).1
  choose Uf hUf using fun c => (hd c).2.1
  choose Nf hNf using fun c => (hd c).2.2
  let Xr : Dev Cert.KernelIdeal.nD → Fin 16 → Fin 128 → Fin 32000 → ℝ := fun c b k v => Xf c (ix3 b k v)
  let Ur : Dev Cert.KernelIdeal.nD → Fin 16 → Fin 128 → Fin 32000 → ℝ := fun c b k v => Uf c (ix3 b k v)
  let Lb : Dev Cert.KernelIdeal.nD → Fin 16 → Fin 128 → Fin 32000 := fun c b j => ⟨Nf c (ix2 b j), (hNf c (ix2 b j)).1⟩
  have hX : ∀ (c : Dev Cert.KernelIdeal.nD) b k v, _ = ((Xr c b k v : ℝ) : EReal) := fun c b k v => hXf c (ix3 b k v)
  have hU : ∀ (c : Dev Cert.KernelIdeal.nD) b k v, _ = ((Ur c b k v : ℝ) : EReal) := fun c b k v => hUf c (ix3 b k v)
  have hLab : ∀ (c : Dev Cert.KernelIdeal.nD) b j, _ = BitVec.ofNat 32 (Lb c b j).val := fun c b j => (hNf c (ix2 b j)).2
  -- the reference's shifts: its row maxima
  choose S hS using fun c => Cert.ReferenceIdeal.RefSoftmax.probs_apply _ _ (Xr c) (Ur c) (hX c) (hU c)
  refine ⟨_, Cert.KernelIdeal.KTail.run m ρ Xr Ur Lb hX hU hLab S, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.RefTail.tail_eq, (hagree c).1, (hagree c).2.1, (hagree c).2.2]
  refine congrArg (Cert.KernelIdeal.Tail.tail (F := Ideal) _) ?_
  funext i
  obtain ⟨b, k, j, rfl⟩ : ∃ b k j, i = ix3 b k j := ⟨i 0, i 1, i 2, eq_ix3 i⟩
  rw [Cert.ReferenceIdeal.RefGather.gather_apply _ _ _ (Lb c) (hLab c) b k j]
  exact hS c b k (Lb c b j)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
